-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 11
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S10000x128, .f32⟩
  | .local _ .vmem, ⟨4, _⟩ => ⟨S400x10000, .f32⟩
  | .local _ .vmem, ⟨5, _⟩ => ⟨S400x10000, .f32⟩
  | .local _ .vmem, ⟨6, _⟩ => ⟨S10000x128, .f32⟩
  | .local _ .vmem, ⟨7, _⟩ => ⟨S400x128, .f32⟩
  | .local _ .vmem, ⟨8, _⟩ => ⟨S400x128, .f32⟩
  | .local _ .vmem, ⟨9, _⟩ => ⟨S128x128, .f32⟩
  | .local _ .vmem, ⟨10, _⟩ => ⟨S1x128, .f32⟩
  | .local _ .vmem, ⟨11, _⟩ => ⟨S400x128, .f32⟩
  | .local _ .vmem, ⟨12, _⟩ => ⟨S400x128, .f32⟩
  | .local _ .vmem, ⟨13, _⟩ => ⟨S400x10000, .f32⟩
  | .local _ .vmem, ⟨14, _⟩ => ⟨S400x10000, .f32⟩
  | .local _ .vmem, ⟨15, _⟩ => ⟨S10000x128, .f32⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  broadcasts_S1x128_S400x128 : S1x128.Broadcasts S400x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Reg0.lean ====
/-
  The first pallas_call, y = x·W₁ + b₁ on whole arrays (no grid: one point), as a pipeline region at given entry
  contents V: what each window's staging buffer holds after the body, and that the body, run on the staged blocks,
  leaves exactly that.
-/
import proofs.«172139_g81741817578253_cont_9to1c4b_728_2_alg».proof.Proof.Gen.Kernel.Launch
import proofs.«172139_g81741817578253_cont_9to1c4b_728_2_alg».proof.Proof.Gen.Kernel.Skeleton
import proofs.«172139_g81741817578253_cont_9to1c4b_728_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rA : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The result window's buffer after the body, from the three input blocks: its one store. -/
def out0_3 (x0 : Vec F S10000x128 .f32) (x1 : Vec F S128x128 .f32) (x2 : Vec F S1x128 .f32) : Vec F S10000x128 .f32 :=
  View.canon [⟨rA, k0_pay1 (View.ld x0 rA) (View.ld x1 rW) (View.ld x2 rB)⟩]

/-- The proof data of the first pallas_call on core c: the arrays as the region finds them; after the body each
    input's buffer at its block and the result's at out0_3 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The input windows' buffers when the body runs -/

/-- Input window 0's staging buffer holds its block at the body's one point, for any proof data whose array is the
    entry contents and whose body leaves the block in place: a fetched input holds what the fetch put there, an
    unfetched one has not moved its index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the body's one point, for any proof data whose array is the
    entry contents and whose body leaves the block in place: a fetched input holds what the fetch put there, an
    unfetched one has not moved its index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the body's one point, for any proof data whose array is the
    entry contents and whose body leaves the block in place: a fetched input holds what the fetch put there, an
    unfetched one has not moved its index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store covers the result buffer -/

/-- The store's rectangle is the whole buffer, so every index of the buffer lies in it. -/
theorem cover0_3 (p0 : Vec F S10000x128 .f32) (y : S10000x128.Idx) :
    ∃ pc ∈ ([⟨rA, p0⟩] : List (View.Piece (Elt F) S10000x128 .f32)), y ∈ pc.1.set :=
  View.cover_of_tiled [⟨rA, p0⟩] S10000x128.size (by rfl) y

/-! ## The body's triple -/

set_option maxHeartbeats 1000000 in
/-- The kernel function on whole staging memrefs, the three inputs at read contents x0, x1, x2 and the result's at
    anything, runs to the continuation holding the inputs as they were and the result's buffer at out0_3 of them:
    three whole-buffer loads, a load of the result buffer whose value is not used, and one whole-buffer store of
    the payload. -/
theorem sound_kernel0 (c : Dev nD) (E : Set ℕ)
    (arg0 : Memref sig .tc .vmem S10000x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S10000x128 .f32) (harg3 : arg3.IsWhole)
    (x0 : Vec F S10000x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__lin_kernel arg0 harg0 arg1 harg1 arg2 harg2 arg3 harg3) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pallas_call at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second pallas_call, z = (y + (G·y)·W₂) + b₂, row block by row block (25 points of 400 rows), as a pipeline region
  at given entry contents V: what each window's staging buffer holds after the body at a point, and that the body,
  run on the staged blocks, leaves exactly that. The array y is read through two windows (whole, and the point's
  400 rows): each holds half of it.
-/
import proofs.«172139_g81741817578253_cont_9to1c4b_728_2_alg».proof.Proof.Gen.Kernel.Launch
import proofs.«172139_g81741817578253_cont_9to1c4b_728_2_alg».proof.Proof.Gen.Kernel.Skeleton
import proofs.«172139_g81741817578253_cont_9to1c4b_728_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rG1 : Rect S400x10000 := Rect.unit (s := S400x10000) ![0, 0] S400x10000.size inb_S400x10000_S400x10000_0_0
abbrev rY1 : Rect S10000x128 := Rect.unit (s := S10000x128) ![0, 0] S10000x128.size inb_S10000x128_S10000x128_0_0
abbrev rO1 : Rect S400x128 := Rect.unit (s := S400x128) ![0, 0] S400x128.size inb_S400x128_S400x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The result window's buffer after the body, from the five input blocks: its one store. -/
def out1_5 (x0 : Vec F S400x10000 .f32) (x1 : Vec F S10000x128 .f32) (x2 : Vec F S400x128 .f32) (x3 : Vec F S128x128 .f32)
    (x4 : Vec F S1x128 .f32) : Vec F S400x128 .f32 :=
  View.canon [⟨rO1, k1_pay1 (View.ld x0 rG1) (View.ld x1 rY1) (View.ld x2 rO1) (View.ld x3 rW1) (View.ld x4 rB1)⟩]

/-- The proof data of the second pallas_call on core c: the arrays as the region finds them; after the body at point t
    each input's buffer at its block and the result's at out1_5 of the input blocks; nothing owed; the two windows on
    the array y hold its two halves, every other input its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## Each input window's buffer holds its block -/

/-- Input window 0's current staging buffer holds its block at every point, fetched there or not: where it is not
    fetched its block index has not moved, and the body leaves the block in place. -/
private theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

private theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: where it is not
    fetched its block index has not moved, and the body leaves the block in place. -/
private theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

private theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: where it is not
    fetched its block index has not moved, and the body leaves the block in place. -/
private theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

private theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: where it is not
    fetched its block index has not moved, and the body leaves the block in place. -/
private theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

private theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not: where it is not
    fetched its block index has not moved, and the body leaves the block in place. -/
private theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

private theorem before1_4 (c : Dev nD) (t : Fin cfg1.N) (d) : (dat1 V c).before 4 t d = iblk1 V c 4 t :=
  before1_4_of V (dat1 V c) (A_eq1 V c 4) (after1_4 V c) t d

/-! ## The body's one store covers the result buffer -/

/-- The store's rectangle is the whole buffer, so every index of the buffer lies in it. -/
private theorem cover1_5 (p0 : Vec F S400x128 .f32) (y : S400x128.Idx) :
    ∃ pc ∈ ([⟨rO1, p0⟩] : List (View.Piece (Elt F) S400x128 .f32)), y ∈ pc.1.set :=
  View.cover_of_tiled [⟨rO1, p0⟩] S400x128.size (by rfl) y

/-! ## The kernel function on whole buffers -/

set_option maxHeartbeats 1000000 in
/-- The kernel function on whole staging buffers, the five inputs' at contents x0 … x4 and the result's at anything,
    runs to the continuation with the inputs as they were and the result's buffer at out1_5 of the inputs: five loads,
    a load of the result buffer whose value is unused, and one store over the whole buffer. The grid coordinate is
    not read. -/
private theorem sound_kernel1 (c : Dev nD) (E : Set ℕ) (i : grid1.Coords)
    (arg1 : Memref sig .tc .vmem S400x10000 .f32) (harg1 : arg1.IsWhole)
    (arg2 : Memref sig .tc .vmem S10000x128 .f32) (harg2 : arg2.IsWhole)
    (arg3 : Memref sig .tc .vmem S400x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S400x128 .f32) (harg6 : arg6.IsWhole)
    (x0 : Vec F S400x10000 .f32) (x1 : Vec F S10000x128 .f32) (x2 : Vec F S400x128 .f32) (x3 : Vec F S128x128 .f32) (x4 : Vec F S1x128 .f32)
    (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__pass1_kernel i arg1 harg1 arg2 harg2 arg3 harg3 arg4 harg4 arg5 harg5 arg6 harg6) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point t: the invariant, what the core owes, and each window's current buffer at
    what it then holds. -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same invariant and debt, each buffer at what the body leaves. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the kernel function's triple applies; the
    invariant and the core's debt pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pallas_call at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The third pallas_call, out = 0.5 · (G·z), row block by row block (25 points of 400 rows), as a pipeline region at
  given entry contents V: what each window's staging buffer holds after the body at a point, and that the body, run
  on the staged blocks, leaves exactly that.
-/
import proofs.«172139_g81741817578253_cont_9to1c4b_728_2_alg».proof.Proof.Gen.Kernel.Launch
import proofs.«172139_g81741817578253_cont_9to1c4b_728_2_alg».proof.Proof.Gen.Kernel.Skeleton
import proofs.«172139_g81741817578253_cont_9to1c4b_728_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rG2 : Rect S400x10000 := Rect.unit (s := S400x10000) ![0, 0] S400x10000.size inb_S400x10000_S400x10000_0_0
abbrev rZ2 : Rect S10000x128 := Rect.unit (s := S10000x128) ![0, 0] S10000x128.size inb_S10000x128_S10000x128_0_0
abbrev rO2 : Rect S400x128 := Rect.unit (s := S400x128) ![0, 0] S400x128.size inb_S400x128_S400x128_0_0

/-- The result window's buffer after the body, from the two input blocks: its one store. -/
def out2_2 (x0 : Vec F S400x10000 .f32) (x1 : Vec F S10000x128 .f32) : Vec F S400x128 .f32 :=
  View.canon [⟨rO2, k2_pay1 (View.ld x0 rG2) (View.ld x1 rZ2)⟩]

/-- The proof data of the third pallas_call on core c: the arrays as the region finds them; after the body at point t
    each input's buffer at its block and the result's at out2_2 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- An input window's staging buffer holds its block at every point, fetched there or not: where it was not
    fetched its block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

/-- The one store is through the whole-buffer rectangle, so it covers the result's buffer. -/
theorem cover2_2 (p0 : Vec F S400x128 .f32) (y : S400x128.Idx) :
    ∃ pc ∈ ([⟨rO2, p0⟩] : List (View.Piece (Elt F) S400x128 .f32)), y ∈ pc.1.set :=
  View.cover_of_tiled [⟨rO2, p0⟩] S400x128.size (by rfl) y

set_option maxHeartbeats 1000000 in
/-- The kernel function on whole staging memrefs, the two inputs' reading x0 and x1 and the result's holding anything,
    runs to the continuation with the inputs' as they were and the result's at out2_2 x0 x1. -/
theorem sound_kernel2 (c : Dev nD) (E : Set ℕ) (i : grid2.Coords)
    (arg1 : Memref sig .tc .vmem S400x10000 .f32) (harg1 : arg1.IsWhole)
    (arg2 : Memref sig .tc .vmem S10000x128 .f32) (harg2 : arg2.IsWhole)
    (arg3 : Memref sig .tc .vmem S400x128 .f32) (harg3 : arg3.IsWhole)
    (x0 : Vec F S400x10000 .f32) (x1 : Vec F S10000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__pass2_kernel i arg1 harg1 arg2 harg2 arg3 harg3) K := by
  simp only [cc2__pass2_kernel_eq_skeleton]; unfold cc2__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the kernel's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the third pallas_call at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole program as three regions after one stretch of two reshapes: the contents of every array between the
  regions, each region entered from what the one before left, and the run read at the end — the result array holds
  what the third region wrote and the six arguments hold their launch contents.
-/
import proofs.«172139_g81741817578253_cont_9to1c4b_728_2_alg».proof.Proof.K.Reg0
import proofs.«172139_g81741817578253_cont_9to1c4b_728_2_alg».proof.Proof.K.Reg1
import proofs.«172139_g81741817578253_cont_9to1c4b_728_2_alg».proof.Proof.K.Reg2
import proofs.«172139_g81741817578253_cont_9to1c4b_728_2_alg».proof.Proof.K.RegionsV

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays' contents between the regions -/

/-- The first region is entered from the launch contents after the two reshapes of the bias vectors. -/
abbrev E1 : (c : Dev nD) → (b : Ref sig .tc) → Buf (Elt F) ((c : Thread nD τ).loc b) := fun c b => GenV.V1 m c b
/-- What the first region leaves in the array y. -/
def o2 (c : Dev nD) : Buf (Elt F) ((c : Thread nD τ).loc main_v2) := (dat0 (E1 m) c).arrAt 3 cfg0.N
/-- The contents after the first region: y updated. -/
abbrev W2 (c : Dev nD) : Valuation τ sig (Elt F) := Function.update (GenV.V1 m c) main_v2 (o2 m c)
abbrev E2 : (c : Dev nD) → (b : Ref sig .tc) → Buf (Elt F) ((c : Thread nD τ).loc b) := fun c b => W2 m c b
/-- What the second region leaves in the array z. -/
def o3 (c : Dev nD) : Buf (Elt F) ((c : Thread nD τ).loc main_v3) := (dat1 (E2 m) c).arrAt 5 cfg1.N
/-- The contents after the second region: z updated. -/
abbrev W3 (c : Dev nD) : Valuation τ sig (Elt F) := Function.update (W2 m c) main_v3 (o3 m c)
abbrev E3 : (c : Dev nD) → (b : Ref sig .tc) → Buf (Elt F) ((c : Thread nD τ).loc b) := fun c b => W3 m c b
/-- What the third region leaves in the result array. -/
def o4 (c : Dev nD) : Buf (Elt F) ((c : Thread nD τ).loc main_v4) := (dat2 (E3 m) c).arrAt 2 cfg2.N
/-- The contents at the end: the result array updated. -/
abbrev W4 (c : Dev nD) : Valuation τ sig (Elt F) := Function.update (W3 m c) main_v4 (o4 m c)

/-- What each region leaves in the array it writes, as one family. -/
def outs : GenV.Outs (F := F) := fun _ r c =>
  if h : r = main_v2 then h ▸ o2 m c
  else if h : r = main_v3 then h ▸ o3 m c
  else if h : r = main_v4 then h ▸ o4 m c
  else m ((c : Thread nD τ).loc r)

theorem outs2 (c : Dev nD) : outs m 2 main_v2 c = o2 m c := by unfold outs; rw [dif_pos rfl]
theorem outs3 (c : Dev nD) : outs m 3 main_v3 c = o3 m c := by
  unfold outs; rw [dif_neg (by decide), dif_pos rfl]
theorem outs4 (c : Dev nD) : outs m 4 main_v4 c = o4 m c := by
  unfold outs; rw [dif_neg (by decide), dif_neg (by decide), dif_pos rfl]

theorem V2_eq (c : Dev nD) : GenV.V2 m (outs m) c = W2 m c := by
  unfold GenV.V2 W2; rw [outs2]
theorem V3_eq (c : Dev nD) : GenV.V3 m (outs m) c = W3 m c := by
  unfold GenV.V3 W3; rw [outs3, V2_eq]
theorem V4_eq (c : Dev nD) : GenV.V4 m (outs m) c = W4 m c := by
  unfold GenV.V4 W4; rw [outs4, V3_eq]

/-! ## The proof data family and what rides beside the arrays -/

/-- Every pipeline's proof data, each at its region's entry contents. -/
def pdats : (p : Fin 3) → (c : Dev nD) → Dat τ (Elt F) Unit ℕ (UR sig nD τ) ℕ (Pipeline.pin (pcfgs (F := F)) GenV.adm p) c
  | ⟨0, _⟩ => fun c => dat0 (E1 m) c
  | ⟨1, _⟩ => fun c => dat1 (E2 m) c
  | ⟨2, _⟩ => fun c => dat2 (E3 m) c

abbrev 𝒱₀ : Variants := Variants.none
/-- No core owes another anything: no level is assigned. -/
abbrev L : GSem nD τ sig → Finset Unit := fun _ => ∅
abbrev lv : GSem nD τ sig → Unit → ℕ := fun _ _ => 0
/-- Beside the arrays through every segment: the generator register at some state, and nothing owed. -/
abbrev R (c : Dev nD) : sProp 𝕄 := iprop((∃ r, prngReg c r) ∗ ∃ W, owes (c : Thread nD τ) (0 : CellTallies nD τ sig Unit) W)

/-! ## Reading the updated contents -/

theorem W2_of_ne (c : Dev nD) (b : Ref sig .tc) (h : b ≠ main_v2) : W2 m c b = GenV.V1 m c b :=
  Function.update_of_ne (StableHlo.devRef_ne_of_ne h : (Proc.devRef .tc b : DevRef τ sig) ≠ Proc.devRef .tc main_v2) _ _
theorem W2_self (c : Dev nD) : W2 m c main_v2 = o2 m c := Function.update_self _ _ _
theorem W3_of_ne (c : Dev nD) (b : Ref sig .tc) (h : b ≠ main_v3) : W3 m c b = W2 m c b :=
  Function.update_of_ne (StableHlo.devRef_ne_of_ne h : (Proc.devRef .tc b : DevRef τ sig) ≠ Proc.devRef .tc main_v3) _ _
theorem W3_self (c : Dev nD) : W3 m c main_v3 = o3 m c := Function.update_self _ _ _
theorem W4_of_ne (c : Dev nD) (b : Ref sig .tc) (h : b ≠ main_v4) : W4 m c b = W3 m c b :=
  Function.update_of_ne (StableHlo.devRef_ne_of_ne h : (Proc.devRef .tc b : DevRef τ sig) ≠ Proc.devRef .tc main_v4) _ _
theorem W4_self (c : Dev nD) : W4 m c main_v4 = o4 m c := Function.update_self _ _ _

/-! ## Region 0 -/

/-- At the first region's exit each of its arrays holds what the contents after it say: the result what the region
    wrote, an input what it held at entry. -/
theorem hF0 (c : Dev nD) (w : Fin cfg0.W) : (pdats m 0 c).arrAt w cfg0.N = E2 m c (Pipeline.arrRef spec0 w) := by
  match w with
  | ⟨0, _⟩ => exact ((dat0 (E1 m) c).arrAt_in 0 rfl _).trans ((A_eq0 (E1 m) c 0).trans (W2_of_ne m c main_arg0 (by decide)).symm)
  | ⟨1, _⟩ => exact ((dat0 (E1 m) c).arrAt_in 1 rfl _).trans ((A_eq0 (E1 m) c 1).trans (W2_of_ne m c main_arg2 (by decide)).symm)
  | ⟨2, _⟩ => exact ((dat0 (E1 m) c).arrAt_in 2 rfl _).trans ((A_eq0 (E1 m) c 2).trans (W2_of_ne m c main_v0 (by decide)).symm)
  | ⟨3, _⟩ => exact (W2_self m c).symm
/-- Every other array is as it was. -/
theorem hrest0 (c : Dev nD) : ∀ b, b ∉ Finset.univ.image (Pipeline.arrRef spec0) → E2 m c b = E1 m c b :=
  fun b hb => W2_of_ne m c b fun e => hb (e ▸ Finset.mem_image.mpr ⟨3, Finset.mem_univ _, rfl⟩)

-- a library lemma stated over the pinned configuration unifies with the printed one only when unification may unfold
-- plain definitions in a metavariable's type
set_option backward.isDefEq.respectTransparency.types false in
/-- Region 0 over the thread state: entered with every array at the contents before it, left with its result array
    updated. Its arrays are split out of the arrays at entry and put back at exit; the generator register goes into
    the region's invariant and comes back; nothing is owed; the kernel has no semaphore of its own. -/
def reg0 : Pipeline.RegionSeg (pcfgs (F := F)) GenV.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (GenV.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) GenV.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenV.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the array y is read through two windows -/

theorem share1_0 (c : Dev nD) : (pdats m 1 c).share 0 = fullShare := rfl
theorem share1_1 (c : Dev nD) : (pdats m 1 c).share 1 = fullShare.left := rfl
theorem share1_2 (c : Dev nD) : (pdats m 1 c).share 2 = fullShare.right := rfl
theorem share1_3 (c : Dev nD) : (pdats m 1 c).share 3 = fullShare := rfl
theorem share1_4 (c : Dev nD) : (pdats m 1 c).share 4 = fullShare := rfl
theorem share1_5 (c : Dev nD) : (pdats m 1 c).share 5 = fullShare := rfl

/-- The five distinct buffers behind the second pallas_call's six windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)
          ∗ (((c : Thread nD τ).loc main_arg4) ↦{fullShare} V main_arg4) ∗ (((c : Thread nD τ).loc main_v1) ↦{fullShare} V main_v1)
          ∗ (((c : Thread nD τ).loc main_v3) ↦{fullShare} V main_v3)) := by
  unfold Pipeline.arrBufs
  exact bigSep_eq_bigSepL_of_eq [main_arg1, main_v2, main_arg4, main_v1, main_v3] (by decide) (by decide) _

/-- The second pallas_call's arrays, window by window, each at its share. -/
theorem arrays1_eq (c : Dev nD) (G : (w : Fin cfg1.W) → Buf (Elt F) ((cfg1.win w).arr.view.loc (c : Thread nD τ))) :
    ((pdats m 1 c).arrays G : sProp 𝕄)
      = iprop((((c : Thread nD τ).loc main_arg1) ↦{fullShare} G 0) ∗ (((c : Thread nD τ).loc main_v2) ↦{fullShare.left} G 1)
          ∗ (((c : Thread nD τ).loc main_v2) ↦{fullShare.right} G 2) ∗ (((c : Thread nD τ).loc main_arg4) ↦{fullShare} G 3)
          ∗ (((c : Thread nD τ).loc main_v1) ↦{fullShare} G 4) ∗ (((c : Thread nD τ).loc main_v3) ↦{fullShare} G 5)) := by
  unfold Dat.arrays
  have hs : ∀ w, ((Pipeline.pin (pcfgs (F := F)) GenV.adm 1).win w).arr.view.set = Finset.univ := fun w => (arr_whole1 w).set_eq_univ
  rw [bigSep_W1, share1_0, share1_1, share1_2, share1_3, share1_4, share1_5]
  simp only [hs]
  rfl

/-- At the second region's exit each of its arrays holds what the contents after it say. -/
theorem hF1_0 (c : Dev nD) : (pdats m 1 c).arrAt 0 cfg1.N = E3 m c main_arg1 :=
  ((dat1 (E2 m) c).arrAt_in 0 rfl _).trans ((A_eq1 (E2 m) c 0).trans (W3_of_ne m c main_arg1 (by decide)).symm)
theorem hF1_1 (c : Dev nD) : (pdats m 1 c).arrAt 1 cfg1.N = E3 m c main_v2 :=
  ((dat1 (E2 m) c).arrAt_in 1 rfl _).trans ((A_eq1 (E2 m) c 1).trans (W3_of_ne m c main_v2 (by decide)).symm)
theorem hF1_2 (c : Dev nD) : (pdats m 1 c).arrAt 2 cfg1.N = E3 m c main_v2 :=
  ((dat1 (E2 m) c).arrAt_in 2 rfl _).trans ((A_eq1 (E2 m) c 2).trans (W3_of_ne m c main_v2 (by decide)).symm)
theorem hF1_3 (c : Dev nD) : (pdats m 1 c).arrAt 3 cfg1.N = E3 m c main_arg4 :=
  ((dat1 (E2 m) c).arrAt_in 3 rfl _).trans ((A_eq1 (E2 m) c 3).trans (W3_of_ne m c main_arg4 (by decide)).symm)
theorem hF1_4 (c : Dev nD) : (pdats m 1 c).arrAt 4 cfg1.N = E3 m c main_v1 :=
  ((dat1 (E2 m) c).arrAt_in 4 rfl _).trans ((A_eq1 (E2 m) c 4).trans (W3_of_ne m c main_v1 (by decide)).symm)
theorem hF1_5 (c : Dev nD) : (pdats m 1 c).arrAt 5 cfg1.N = E3 m c main_v3 := (W3_self m c).symm
/-- Every other array is as it was. -/
theorem hrest1 (c : Dev nD) : ∀ b, b ∉ Finset.univ.image (Pipeline.arrRef spec1) → E3 m c b = E2 m c b :=
  fun b hb => W3_of_ne m c b fun e => hb (e ▸ Finset.mem_image.mpr ⟨5, Finset.mem_univ _, rfl⟩)

/-- Entry: every array at the contents after the first region gives the second pallas_call's arrays at their shares —
    the array y split into its two halves, one for each window that reads it — beside the arrays it does not touch. -/
theorem entry1 (c : Dev nD) :
    (StableHlo.held (c : Thread nD τ) (Pipeline.ucRefs τ sig) (W2 m c) : sProp 𝕄)
      ⊢ iprop((pdats m 1 c).arrays ((pdats m 1 c).arrAt · 0)
          ∗ Pipeline.unscopedRest (Ix := Unit) (Name := ℕ) (U := UR sig nD τ) (Lvl := ℕ) spec1 c (E2 m c)) := by
  have hs : (StableHlo.held (c : Thread nD τ) (Pipeline.ucRefs τ sig) (W2 m c) : sProp 𝕄)
      = iprop(Pipeline.arrBufs (Ix := Unit) (Name := ℕ) (U := UR sig nD τ) (Lvl := ℕ) spec1 c (E2 m c)
          ∗ Pipeline.unscopedRest (Ix := Unit) (Name := ℕ) (U := UR sig nD τ) (Lvl := ℕ) spec1 c (E2 m c)) :=
    (Pipeline.unscopedBufs_held c (W2 m c)).symm.trans
      (Pipeline.unscopedBufs_split₀ (Pipeline.pin (pcfgs (F := F)) GenV.adm) 1 winFacts₀1.arr_unscoped c (E2 m c))
  rw [hs, arrBufs1_eq, arrays1_eq]
  iintro ⟨⟨H1, H2, H4, Hb, H3⟩, Hr⟩
  ihave H2 := (pointsTo_share (PosShare.mem_left_op_right fullShare)).1 $$ H2
  icases H2 with ⟨H2l, H2r⟩
  isplitr [Hr]
  · isplitl [H1]; · iexact H1
    isplitl [H2l]; · iexact H2l
    isplitl [H2r]; · iexact H2r
    isplitl [H4]; · iexact H4
    isplitl [Hb]; · iexact Hb
    iexact H3
  iexact Hr

/-- Exit: the arrays at what the region leaves — the two halves of y joined again — and the arrays it did not touch
    are every array at the contents after the second region. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (E2 m c))
      ⊢ (StableHlo.held (c : Thread nD τ) (Pipeline.ucRefs τ sig) (W3 m c) : sProp 𝕄) := by
  have hs : (StableHlo.held (c : Thread nD τ) (Pipeline.ucRefs τ sig) (W3 m c) : sProp 𝕄)
      = iprop(Pipeline.arrBufs (Ix := Unit) (Name := ℕ) (U := UR sig nD τ) (Lvl := ℕ) spec1 c (E3 m c)
          ∗ Pipeline.unscopedRest (Ix := Unit) (Name := ℕ) (U := UR sig nD τ) (Lvl := ℕ) spec1 c (E3 m c)) :=
    (Pipeline.unscopedBufs_held c (W3 m c)).symm.trans
      (Pipeline.unscopedBufs_split₀ (Pipeline.pin (pcfgs (F := F)) GenV.adm) 1 winFacts₀1.arr_unscoped c (E3 m c))
  have hr : (Pipeline.unscopedRest (Ix := Unit) (Name := ℕ) (U := UR sig nD τ) (Lvl := ℕ) spec1 c (E2 m c) : sProp 𝕄)
      = Pipeline.unscopedRest spec1 c (E3 m c) := by
    unfold Pipeline.unscopedRest
    exact bigSep_congr fun b hb => by rw [hrest1 m c b (Finset.mem_sdiff.mp hb).2]
  rw [hs, arrBufs1_eq, arrays1_eq, hr, hF1_0, hF1_1, hF1_2, hF1_3, hF1_4, hF1_5]
  iintro ⟨⟨H1, H2l, H2r, H4, Hb, H3⟩, Hr⟩
  ihave H2 := (pointsTo_share (PosShare.mem_left_op_right fullShare)).2 $$ [H2l H2r]
  · isplitl [H2l] <;> iassumption
  isplitr [Hr]
  · isplitl [H1]; · iexact H1
    isplitl [H2]; · iexact H2
    isplitl [H4]; · iexact H4
    isplitl [Hb]; · iexact Hb
    iexact H3
  iexact Hr

set_option backward.isDefEq.respectTransparency.types false in
/-- Region 1 over the thread state: entered with every array at the contents after the first region, left with the
    array z updated. Two of its windows read one array, so its arrays are dealt by hand (entry1, exit1); the rest is
    as for the other regions. -/
def reg1 : Pipeline.RegionSeg (pcfgs (F := F)) GenV.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## Region 2 -/

abbrev E4 : (c : Dev nD) → (b : Ref sig .tc) → Buf (Elt F) ((c : Thread nD τ).loc b) := fun c b => W4 m c b

/-- At the third region's exit each of its arrays holds what the contents after it say. -/
theorem hF2 (c : Dev nD) (w : Fin cfg2.W) : (pdats m 2 c).arrAt w cfg2.N = E4 m c (Pipeline.arrRef spec2 w) := by
  match w with
  | ⟨0, _⟩ => exact ((dat2 (E3 m) c).arrAt_in 0 rfl _).trans ((A_eq2 (E3 m) c 0).trans (W4_of_ne m c main_arg1 (by decide)).symm)
  | ⟨1, _⟩ => exact ((dat2 (E3 m) c).arrAt_in 1 rfl _).trans ((A_eq2 (E3 m) c 1).trans (W4_of_ne m c main_v3 (by decide)).symm)
  | ⟨2, _⟩ => exact (W4_self m c).symm
/-- Every other array is as it was. -/
theorem hrest2 (c : Dev nD) : ∀ b, b ∉ Finset.univ.image (Pipeline.arrRef spec2) → E4 m c b = E3 m c b :=
  fun b hb => W4_of_ne m c b fun e => hb (e ▸ Finset.mem_image.mpr ⟨2, Finset.mem_univ _, rfl⟩)

-- a library lemma stated over the pinned configuration unifies with the printed one only when unification may unfold
-- plain definitions in a metavariable's type
set_option backward.isDefEq.respectTransparency.types false in
/-- Region 2 over the thread state: entered with every array at the contents before it, left with its result array
    updated. Its arrays are split out of the arrays at entry and put back at exit; the generator register goes into
    the region's invariant and comes back; nothing is owed; the kernel has no semaphore of its own. -/
def reg2 : Pipeline.RegionSeg (pcfgs (F := F)) GenV.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) GenV.adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenV.adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch deals a core besides its arrays gives the rest that rides through the segments. -/
theorem rest_of_launch (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R c := by
  iintro ⟨-, HO, -, Hp, -⟩
  isplitl [Hp]; · iexists _; iexact Hp
  iexists ∅; iexact HO

-- the conditional run's implicit arguments are found by unifying its conclusion with this one, which takes unfolding
-- plain definitions in a metavariable's type
set_option backward.isDefEq.respectTransparency.types false in
/-- Every weakly fair execution of the program from memory m with zero counters terminates, nothing faulting; at
    the end the result array holds what the third region wrote and each of the six arguments its launch contents. -/
theorem run (ρ : Dev nD → PrngReg) :
    θ_run defs (onTc (τ := τ) (main (F := F))) ⟨m, fun _ => 0, ρ⟩ (fun r => ∀ c : Dev nD,
      r.2.mem ((c.tc : Thread nD τ).loc main_v4) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hrun := GenV.run_cond (m := m) (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hm : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ bigSep Finset.univ (fun c : Dev nD => R (F := F) c) := bigSep_mono (fun c _ => rest_of_launch (F := F) ρ c)
      iintro ⟨H, -⟩
      imodintro
      iapply hm
      iexact H)
    (hE3 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
  exact (θ_run defs _ _).mono (fun r h c => ⟨(h c).1.trans (outs4 m c), (h c).2⟩) hrun

end Cert.Kernel.Hand

end
-- ==== Proof.KI.Reg0.lean ====
/-
  The first pallas_call, y = x·W₁ + b₁ on whole arrays (no grid: one point), as a pipeline region at given entry
  contents V: what each window's staging buffer holds after the body, and that the body, run on the staged blocks,
  leaves exactly that.
-/
import proofs.«172139_g81741817578253_cont_9to1c4b_728_2_alg».proof.Proof.Gen.KernelIdeal.Launch
import proofs.«172139_g81741817578253_cont_9to1c4b_728_2_alg».proof.Proof.Gen.KernelIdeal.Skeleton
import proofs.«172139_g81741817578253_cont_9to1c4b_728_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rA : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The result window's buffer after the body, from the three input blocks: its one store. -/
def out0_3 (x0 : Vec F S10000x128 .f32) (x1 : Vec F S128x128 .f32) (x2 : Vec F S1x128 .f32) : Vec F S10000x128 .f32 :=
  View.canon [⟨rA, k0_pay1 (View.ld x0 rA) (View.ld x1 rW) (View.ld x2 rB)⟩]

/-- The proof data of the first pallas_call on core c: the arrays as the region finds them; after the body each
    input's buffer at its block and the result's at out0_3 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The input windows' buffers when the body runs -/

/-- Input window 0's staging buffer holds its block at the body's one point, for any proof data whose array is the
    entry contents and whose body leaves the block in place: a fetched input holds what the fetch put there, an
    unfetched one has not moved its index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the body's one point, for any proof data whose array is the
    entry contents and whose body leaves the block in place: a fetched input holds what the fetch put there, an
    unfetched one has not moved its index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the body's one point, for any proof data whose array is the
    entry contents and whose body leaves the block in place: a fetched input holds what the fetch put there, an
    unfetched one has not moved its index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store covers the result buffer -/

/-- The store's rectangle is the whole buffer, so every index of the buffer lies in it. -/
theorem cover0_3 (p0 : Vec F S10000x128 .f32) (y : S10000x128.Idx) :
    ∃ pc ∈ ([⟨rA, p0⟩] : List (View.Piece (Elt F) S10000x128 .f32)), y ∈ pc.1.set :=
  View.cover_of_tiled [⟨rA, p0⟩] S10000x128.size (by rfl) y

/-! ## The body's triple -/

set_option maxHeartbeats 1000000 in
/-- The kernel function on whole staging memrefs, the three inputs at read contents x0, x1, x2 and the result's at
    anything, runs to the continuation holding the inputs as they were and the result's buffer at out0_3 of them:
    three whole-buffer loads, a load of the result buffer whose value is not used, and one whole-buffer store of
    the payload. -/
theorem sound_kernel0 (c : Dev nD) (E : Set ℕ)
    (arg0 : Memref sig .tc .vmem S10000x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S10000x128 .f32) (harg3 : arg3.IsWhole)
    (x0 : Vec F S10000x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__lin_kernel arg0 harg0 arg1 harg1 arg2 harg2 arg3 harg3) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pallas_call at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second pallas_call, z = (y + (G·y)·W₂) + b₂, row block by row block (25 points of 400 rows), as a pipeline region
  at given entry contents V: what each window's staging buffer holds after the body at a point, and that the body,
  run on the staged blocks, leaves exactly that. The array y is read through two windows (whole, and the point's
  400 rows): each holds half of it.
-/
import proofs.«172139_g81741817578253_cont_9to1c4b_728_2_alg».proof.Proof.Gen.KernelIdeal.Launch
import proofs.«172139_g81741817578253_cont_9to1c4b_728_2_alg».proof.Proof.Gen.KernelIdeal.Skeleton
import proofs.«172139_g81741817578253_cont_9to1c4b_728_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rG1 : Rect S400x10000 := Rect.unit (s := S400x10000) ![0, 0] S400x10000.size inb_S400x10000_S400x10000_0_0
abbrev rY1 : Rect S10000x128 := Rect.unit (s := S10000x128) ![0, 0] S10000x128.size inb_S10000x128_S10000x128_0_0
abbrev rO1 : Rect S400x128 := Rect.unit (s := S400x128) ![0, 0] S400x128.size inb_S400x128_S400x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The result window's buffer after the body, from the five input blocks: its one store. -/
def out1_5 (x0 : Vec F S400x10000 .f32) (x1 : Vec F S10000x128 .f32) (x2 : Vec F S400x128 .f32) (x3 : Vec F S128x128 .f32)
    (x4 : Vec F S1x128 .f32) : Vec F S400x128 .f32 :=
  View.canon [⟨rO1, k1_pay1 (View.ld x0 rG1) (View.ld x1 rY1) (View.ld x2 rO1) (View.ld x3 rW1) (View.ld x4 rB1)⟩]

/-- The proof data of the second pallas_call on core c: the arrays as the region finds them; after the body at point t
    each input's buffer at its block and the result's at out1_5 of the input blocks; nothing owed; the two windows on
    the array y hold its two halves, every other input its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## Each input window's buffer holds its block -/

/-- Input window 0's current staging buffer holds its block at every point, fetched there or not: where it is not
    fetched its block index has not moved, and the body leaves the block in place. -/
private theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

private theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: where it is not
    fetched its block index has not moved, and the body leaves the block in place. -/
private theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

private theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: where it is not
    fetched its block index has not moved, and the body leaves the block in place. -/
private theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

private theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: where it is not
    fetched its block index has not moved, and the body leaves the block in place. -/
private theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

private theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not: where it is not
    fetched its block index has not moved, and the body leaves the block in place. -/
private theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

private theorem before1_4 (c : Dev nD) (t : Fin cfg1.N) (d) : (dat1 V c).before 4 t d = iblk1 V c 4 t :=
  before1_4_of V (dat1 V c) (A_eq1 V c 4) (after1_4 V c) t d

/-! ## The body's one store covers the result buffer -/

/-- The store's rectangle is the whole buffer, so every index of the buffer lies in it. -/
private theorem cover1_5 (p0 : Vec F S400x128 .f32) (y : S400x128.Idx) :
    ∃ pc ∈ ([⟨rO1, p0⟩] : List (View.Piece (Elt F) S400x128 .f32)), y ∈ pc.1.set :=
  View.cover_of_tiled [⟨rO1, p0⟩] S400x128.size (by rfl) y

/-! ## The kernel function on whole buffers -/

set_option maxHeartbeats 1000000 in
/-- The kernel function on whole staging buffers, the five inputs' at contents x0 … x4 and the result's at anything,
    runs to the continuation with the inputs as they were and the result's buffer at out1_5 of the inputs: five loads,
    a load of the result buffer whose value is unused, and one store over the whole buffer. The grid coordinate is
    not read. -/
private theorem sound_kernel1 (c : Dev nD) (E : Set ℕ) (i : grid1.Coords)
    (arg1 : Memref sig .tc .vmem S400x10000 .f32) (harg1 : arg1.IsWhole)
    (arg2 : Memref sig .tc .vmem S10000x128 .f32) (harg2 : arg2.IsWhole)
    (arg3 : Memref sig .tc .vmem S400x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S400x128 .f32) (harg6 : arg6.IsWhole)
    (x0 : Vec F S400x10000 .f32) (x1 : Vec F S10000x128 .f32) (x2 : Vec F S400x128 .f32) (x3 : Vec F S128x128 .f32) (x4 : Vec F S1x128 .f32)
    (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__pass1_kernel i arg1 harg1 arg2 harg2 arg3 harg3 arg4 harg4 arg5 harg5 arg6 harg6) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point t: the invariant, what the core owes, and each window's current buffer at
    what it then holds. -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same invariant and debt, each buffer at what the body leaves. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the kernel function's triple applies; the
    invariant and the core's debt pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pallas_call at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The third pallas_call, out = 0.5 · (G·z), row block by row block (25 points of 400 rows), as a pipeline region at
  given entry contents V: what each window's staging buffer holds after the body at a point, and that the body, run
  on the staged blocks, leaves exactly that.
-/
import proofs.«172139_g81741817578253_cont_9to1c4b_728_2_alg».proof.Proof.Gen.KernelIdeal.Launch
import proofs.«172139_g81741817578253_cont_9to1c4b_728_2_alg».proof.Proof.Gen.KernelIdeal.Skeleton
import proofs.«172139_g81741817578253_cont_9to1c4b_728_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rG2 : Rect S400x10000 := Rect.unit (s := S400x10000) ![0, 0] S400x10000.size inb_S400x10000_S400x10000_0_0
abbrev rZ2 : Rect S10000x128 := Rect.unit (s := S10000x128) ![0, 0] S10000x128.size inb_S10000x128_S10000x128_0_0
abbrev rO2 : Rect S400x128 := Rect.unit (s := S400x128) ![0, 0] S400x128.size inb_S400x128_S400x128_0_0

/-- The result window's buffer after the body, from the two input blocks: its one store. -/
def out2_2 (x0 : Vec F S400x10000 .f32) (x1 : Vec F S10000x128 .f32) : Vec F S400x128 .f32 :=
  View.canon [⟨rO2, k2_pay1 (View.ld x0 rG2) (View.ld x1 rZ2)⟩]

/-- The proof data of the third pallas_call on core c: the arrays as the region finds them; after the body at point t
    each input's buffer at its block and the result's at out2_2 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- An input window's staging buffer holds its block at every point, fetched there or not: where it was not
    fetched its block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

/-- The one store is through the whole-buffer rectangle, so it covers the result's buffer. -/
theorem cover2_2 (p0 : Vec F S400x128 .f32) (y : S400x128.Idx) :
    ∃ pc ∈ ([⟨rO2, p0⟩] : List (View.Piece (Elt F) S400x128 .f32)), y ∈ pc.1.set :=
  View.cover_of_tiled [⟨rO2, p0⟩] S400x128.size (by rfl) y

set_option maxHeartbeats 1000000 in
/-- The kernel function on whole staging memrefs, the two inputs' reading x0 and x1 and the result's holding anything,
    runs to the continuation with the inputs' as they were and the result's at out2_2 x0 x1. -/
theorem sound_kernel2 (c : Dev nD) (E : Set ℕ) (i : grid2.Coords)
    (arg1 : Memref sig .tc .vmem S400x10000 .f32) (harg1 : arg1.IsWhole)
    (arg2 : Memref sig .tc .vmem S10000x128 .f32) (harg2 : arg2.IsWhole)
    (arg3 : Memref sig .tc .vmem S400x128 .f32) (harg3 : arg3.IsWhole)
    (x0 : Vec F S400x10000 .f32) (x1 : Vec F S10000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__pass2_kernel i arg1 harg1 arg2 harg2 arg3 harg3) K := by
  simp only [cc2__pass2_kernel_eq_skeleton]; unfold cc2__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the kernel's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the third pallas_call at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program as three regions after one stretch of two reshapes: the contents of every array between the
  regions, each region entered from what the one before left, and the run read at the end — the result array holds
  what the third region wrote and the six arguments hold their launch contents.
-/
import proofs.«172139_g81741817578253_cont_9to1c4b_728_2_alg».proof.Proof.KI.Reg0
import proofs.«172139_g81741817578253_cont_9to1c4b_728_2_alg».proof.Proof.KI.Reg1
import proofs.«172139_g81741817578253_cont_9to1c4b_728_2_alg».proof.Proof.KI.Reg2
import proofs.«172139_g81741817578253_cont_9to1c4b_728_2_alg».proof.Proof.KI.RegionsV

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays' contents between the regions -/

/-- The first region is entered from the launch contents after the two reshapes of the bias vectors. -/
abbrev E1 : (c : Dev nD) → (b : Ref sig .tc) → Buf (Elt F) ((c : Thread nD τ).loc b) := fun c b => GenV.V1 m c b
/-- What the first region leaves in the array y. -/
def o2 (c : Dev nD) : Buf (Elt F) ((c : Thread nD τ).loc main_v2) := (dat0 (E1 m) c).arrAt 3 cfg0.N
/-- The contents after the first region: y updated. -/
abbrev W2 (c : Dev nD) : Valuation τ sig (Elt F) := Function.update (GenV.V1 m c) main_v2 (o2 m c)
abbrev E2 : (c : Dev nD) → (b : Ref sig .tc) → Buf (Elt F) ((c : Thread nD τ).loc b) := fun c b => W2 m c b
/-- What the second region leaves in the array z. -/
def o3 (c : Dev nD) : Buf (Elt F) ((c : Thread nD τ).loc main_v3) := (dat1 (E2 m) c).arrAt 5 cfg1.N
/-- The contents after the second region: z updated. -/
abbrev W3 (c : Dev nD) : Valuation τ sig (Elt F) := Function.update (W2 m c) main_v3 (o3 m c)
abbrev E3 : (c : Dev nD) → (b : Ref sig .tc) → Buf (Elt F) ((c : Thread nD τ).loc b) := fun c b => W3 m c b
/-- What the third region leaves in the result array. -/
def o4 (c : Dev nD) : Buf (Elt F) ((c : Thread nD τ).loc main_v4) := (dat2 (E3 m) c).arrAt 2 cfg2.N
/-- The contents at the end: the result array updated. -/
abbrev W4 (c : Dev nD) : Valuation τ sig (Elt F) := Function.update (W3 m c) main_v4 (o4 m c)

/-- What each region leaves in the array it writes, as one family. -/
def outs : GenV.Outs (F := F) := fun _ r c =>
  if h : r = main_v2 then h ▸ o2 m c
  else if h : r = main_v3 then h ▸ o3 m c
  else if h : r = main_v4 then h ▸ o4 m c
  else m ((c : Thread nD τ).loc r)

theorem outs2 (c : Dev nD) : outs m 2 main_v2 c = o2 m c := by unfold outs; rw [dif_pos rfl]
theorem outs3 (c : Dev nD) : outs m 3 main_v3 c = o3 m c := by
  unfold outs; rw [dif_neg (by decide), dif_pos rfl]
theorem outs4 (c : Dev nD) : outs m 4 main_v4 c = o4 m c := by
  unfold outs; rw [dif_neg (by decide), dif_neg (by decide), dif_pos rfl]

theorem V2_eq (c : Dev nD) : GenV.V2 m (outs m) c = W2 m c := by
  unfold GenV.V2 W2; rw [outs2]
theorem V3_eq (c : Dev nD) : GenV.V3 m (outs m) c = W3 m c := by
  unfold GenV.V3 W3; rw [outs3, V2_eq]
theorem V4_eq (c : Dev nD) : GenV.V4 m (outs m) c = W4 m c := by
  unfold GenV.V4 W4; rw [outs4, V3_eq]

/-! ## The proof data family and what rides beside the arrays -/

/-- Every pipeline's proof data, each at its region's entry contents. -/
def pdats : (p : Fin 3) → (c : Dev nD) → Dat τ (Elt F) Unit ℕ (UR sig nD τ) ℕ (Pipeline.pin (pcfgs (F := F)) GenV.adm p) c
  | ⟨0, _⟩ => fun c => dat0 (E1 m) c
  | ⟨1, _⟩ => fun c => dat1 (E2 m) c
  | ⟨2, _⟩ => fun c => dat2 (E3 m) c

abbrev 𝒱₀ : Variants := Variants.none
/-- No core owes another anything: no level is assigned. -/
abbrev L : GSem nD τ sig → Finset Unit := fun _ => ∅
abbrev lv : GSem nD τ sig → Unit → ℕ := fun _ _ => 0
/-- Beside the arrays through every segment: the generator register at some state, and nothing owed. -/
abbrev R (c : Dev nD) : sProp 𝕄 := iprop((∃ r, prngReg c r) ∗ ∃ W, owes (c : Thread nD τ) (0 : CellTallies nD τ sig Unit) W)

/-! ## Reading the updated contents -/

theorem W2_of_ne (c : Dev nD) (b : Ref sig .tc) (h : b ≠ main_v2) : W2 m c b = GenV.V1 m c b :=
  Function.update_of_ne (StableHlo.devRef_ne_of_ne h : (Proc.devRef .tc b : DevRef τ sig) ≠ Proc.devRef .tc main_v2) _ _
theorem W2_self (c : Dev nD) : W2 m c main_v2 = o2 m c := Function.update_self _ _ _
theorem W3_of_ne (c : Dev nD) (b : Ref sig .tc) (h : b ≠ main_v3) : W3 m c b = W2 m c b :=
  Function.update_of_ne (StableHlo.devRef_ne_of_ne h : (Proc.devRef .tc b : DevRef τ sig) ≠ Proc.devRef .tc main_v3) _ _
theorem W3_self (c : Dev nD) : W3 m c main_v3 = o3 m c := Function.update_self _ _ _
theorem W4_of_ne (c : Dev nD) (b : Ref sig .tc) (h : b ≠ main_v4) : W4 m c b = W3 m c b :=
  Function.update_of_ne (StableHlo.devRef_ne_of_ne h : (Proc.devRef .tc b : DevRef τ sig) ≠ Proc.devRef .tc main_v4) _ _
theorem W4_self (c : Dev nD) : W4 m c main_v4 = o4 m c := Function.update_self _ _ _

/-! ## Region 0 -/

/-- At the first region's exit each of its arrays holds what the contents after it say: the result what the region
    wrote, an input what it held at entry. -/
theorem hF0 (c : Dev nD) (w : Fin cfg0.W) : (pdats m 0 c).arrAt w cfg0.N = E2 m c (Pipeline.arrRef spec0 w) := by
  match w with
  | ⟨0, _⟩ => exact ((dat0 (E1 m) c).arrAt_in 0 rfl _).trans ((A_eq0 (E1 m) c 0).trans (W2_of_ne m c main_arg0 (by decide)).symm)
  | ⟨1, _⟩ => exact ((dat0 (E1 m) c).arrAt_in 1 rfl _).trans ((A_eq0 (E1 m) c 1).trans (W2_of_ne m c main_arg2 (by decide)).symm)
  | ⟨2, _⟩ => exact ((dat0 (E1 m) c).arrAt_in 2 rfl _).trans ((A_eq0 (E1 m) c 2).trans (W2_of_ne m c main_v0 (by decide)).symm)
  | ⟨3, _⟩ => exact (W2_self m c).symm
/-- Every other array is as it was. -/
theorem hrest0 (c : Dev nD) : ∀ b, b ∉ Finset.univ.image (Pipeline.arrRef spec0) → E2 m c b = E1 m c b :=
  fun b hb => W2_of_ne m c b fun e => hb (e ▸ Finset.mem_image.mpr ⟨3, Finset.mem_univ _, rfl⟩)

-- a library lemma stated over the pinned configuration unifies with the printed one only when unification may unfold
-- plain definitions in a metavariable's type
set_option backward.isDefEq.respectTransparency.types false in
/-- Region 0 over the thread state: entered with every array at the contents before it, left with its result array
    updated. Its arrays are split out of the arrays at entry and put back at exit; the generator register goes into
    the region's invariant and comes back; nothing is owed; the kernel has no semaphore of its own. -/
def reg0 : Pipeline.RegionSeg (pcfgs (F := F)) GenV.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (GenV.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) GenV.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenV.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the array y is read through two windows -/

theorem share1_0 (c : Dev nD) : (pdats m 1 c).share 0 = fullShare := rfl
theorem share1_1 (c : Dev nD) : (pdats m 1 c).share 1 = fullShare.left := rfl
theorem share1_2 (c : Dev nD) : (pdats m 1 c).share 2 = fullShare.right := rfl
theorem share1_3 (c : Dev nD) : (pdats m 1 c).share 3 = fullShare := rfl
theorem share1_4 (c : Dev nD) : (pdats m 1 c).share 4 = fullShare := rfl
theorem share1_5 (c : Dev nD) : (pdats m 1 c).share 5 = fullShare := rfl

/-- The five distinct buffers behind the second pallas_call's six windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)
          ∗ (((c : Thread nD τ).loc main_arg4) ↦{fullShare} V main_arg4) ∗ (((c : Thread nD τ).loc main_v1) ↦{fullShare} V main_v1)
          ∗ (((c : Thread nD τ).loc main_v3) ↦{fullShare} V main_v3)) := by
  unfold Pipeline.arrBufs
  exact bigSep_eq_bigSepL_of_eq [main_arg1, main_v2, main_arg4, main_v1, main_v3] (by decide) (by decide) _

/-- The second pallas_call's arrays, window by window, each at its share. -/
theorem arrays1_eq (c : Dev nD) (G : (w : Fin cfg1.W) → Buf (Elt F) ((cfg1.win w).arr.view.loc (c : Thread nD τ))) :
    ((pdats m 1 c).arrays G : sProp 𝕄)
      = iprop((((c : Thread nD τ).loc main_arg1) ↦{fullShare} G 0) ∗ (((c : Thread nD τ).loc main_v2) ↦{fullShare.left} G 1)
          ∗ (((c : Thread nD τ).loc main_v2) ↦{fullShare.right} G 2) ∗ (((c : Thread nD τ).loc main_arg4) ↦{fullShare} G 3)
          ∗ (((c : Thread nD τ).loc main_v1) ↦{fullShare} G 4) ∗ (((c : Thread nD τ).loc main_v3) ↦{fullShare} G 5)) := by
  unfold Dat.arrays
  have hs : ∀ w, ((Pipeline.pin (pcfgs (F := F)) GenV.adm 1).win w).arr.view.set = Finset.univ := fun w => (arr_whole1 w).set_eq_univ
  rw [bigSep_W1, share1_0, share1_1, share1_2, share1_3, share1_4, share1_5]
  simp only [hs]
  rfl

/-- At the second region's exit each of its arrays holds what the contents after it say. -/
theorem hF1_0 (c : Dev nD) : (pdats m 1 c).arrAt 0 cfg1.N = E3 m c main_arg1 :=
  ((dat1 (E2 m) c).arrAt_in 0 rfl _).trans ((A_eq1 (E2 m) c 0).trans (W3_of_ne m c main_arg1 (by decide)).symm)
theorem hF1_1 (c : Dev nD) : (pdats m 1 c).arrAt 1 cfg1.N = E3 m c main_v2 :=
  ((dat1 (E2 m) c).arrAt_in 1 rfl _).trans ((A_eq1 (E2 m) c 1).trans (W3_of_ne m c main_v2 (by decide)).symm)
theorem hF1_2 (c : Dev nD) : (pdats m 1 c).arrAt 2 cfg1.N = E3 m c main_v2 :=
  ((dat1 (E2 m) c).arrAt_in 2 rfl _).trans ((A_eq1 (E2 m) c 2).trans (W3_of_ne m c main_v2 (by decide)).symm)
theorem hF1_3 (c : Dev nD) : (pdats m 1 c).arrAt 3 cfg1.N = E3 m c main_arg4 :=
  ((dat1 (E2 m) c).arrAt_in 3 rfl _).trans ((A_eq1 (E2 m) c 3).trans (W3_of_ne m c main_arg4 (by decide)).symm)
theorem hF1_4 (c : Dev nD) : (pdats m 1 c).arrAt 4 cfg1.N = E3 m c main_v1 :=
  ((dat1 (E2 m) c).arrAt_in 4 rfl _).trans ((A_eq1 (E2 m) c 4).trans (W3_of_ne m c main_v1 (by decide)).symm)
theorem hF1_5 (c : Dev nD) : (pdats m 1 c).arrAt 5 cfg1.N = E3 m c main_v3 := (W3_self m c).symm
/-- Every other array is as it was. -/
theorem hrest1 (c : Dev nD) : ∀ b, b ∉ Finset.univ.image (Pipeline.arrRef spec1) → E3 m c b = E2 m c b :=
  fun b hb => W3_of_ne m c b fun e => hb (e ▸ Finset.mem_image.mpr ⟨5, Finset.mem_univ _, rfl⟩)

/-- Entry: every array at the contents after the first region gives the second pallas_call's arrays at their shares —
    the array y split into its two halves, one for each window that reads it — beside the arrays it does not touch. -/
theorem entry1 (c : Dev nD) :
    (StableHlo.held (c : Thread nD τ) (Pipeline.ucRefs τ sig) (W2 m c) : sProp 𝕄)
      ⊢ iprop((pdats m 1 c).arrays ((pdats m 1 c).arrAt · 0)
          ∗ Pipeline.unscopedRest (Ix := Unit) (Name := ℕ) (U := UR sig nD τ) (Lvl := ℕ) spec1 c (E2 m c)) := by
  have hs : (StableHlo.held (c : Thread nD τ) (Pipeline.ucRefs τ sig) (W2 m c) : sProp 𝕄)
      = iprop(Pipeline.arrBufs (Ix := Unit) (Name := ℕ) (U := UR sig nD τ) (Lvl := ℕ) spec1 c (E2 m c)
          ∗ Pipeline.unscopedRest (Ix := Unit) (Name := ℕ) (U := UR sig nD τ) (Lvl := ℕ) spec1 c (E2 m c)) :=
    (Pipeline.unscopedBufs_held c (W2 m c)).symm.trans
      (Pipeline.unscopedBufs_split₀ (Pipeline.pin (pcfgs (F := F)) GenV.adm) 1 winFacts₀1.arr_unscoped c (E2 m c))
  rw [hs, arrBufs1_eq, arrays1_eq]
  iintro ⟨⟨H1, H2, H4, Hb, H3⟩, Hr⟩
  ihave H2 := (pointsTo_share (PosShare.mem_left_op_right fullShare)).1 $$ H2
  icases H2 with ⟨H2l, H2r⟩
  isplitr [Hr]
  · isplitl [H1]; · iexact H1
    isplitl [H2l]; · iexact H2l
    isplitl [H2r]; · iexact H2r
    isplitl [H4]; · iexact H4
    isplitl [Hb]; · iexact Hb
    iexact H3
  iexact Hr

/-- Exit: the arrays at what the region leaves — the two halves of y joined again — and the arrays it did not touch
    are every array at the contents after the second region. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (E2 m c))
      ⊢ (StableHlo.held (c : Thread nD τ) (Pipeline.ucRefs τ sig) (W3 m c) : sProp 𝕄) := by
  have hs : (StableHlo.held (c : Thread nD τ) (Pipeline.ucRefs τ sig) (W3 m c) : sProp 𝕄)
      = iprop(Pipeline.arrBufs (Ix := Unit) (Name := ℕ) (U := UR sig nD τ) (Lvl := ℕ) spec1 c (E3 m c)
          ∗ Pipeline.unscopedRest (Ix := Unit) (Name := ℕ) (U := UR sig nD τ) (Lvl := ℕ) spec1 c (E3 m c)) :=
    (Pipeline.unscopedBufs_held c (W3 m c)).symm.trans
      (Pipeline.unscopedBufs_split₀ (Pipeline.pin (pcfgs (F := F)) GenV.adm) 1 winFacts₀1.arr_unscoped c (E3 m c))
  have hr : (Pipeline.unscopedRest (Ix := Unit) (Name := ℕ) (U := UR sig nD τ) (Lvl := ℕ) spec1 c (E2 m c) : sProp 𝕄)
      = Pipeline.unscopedRest spec1 c (E3 m c) := by
    unfold Pipeline.unscopedRest
    exact bigSep_congr fun b hb => by rw [hrest1 m c b (Finset.mem_sdiff.mp hb).2]
  rw [hs, arrBufs1_eq, arrays1_eq, hr, hF1_0, hF1_1, hF1_2, hF1_3, hF1_4, hF1_5]
  iintro ⟨⟨H1, H2l, H2r, H4, Hb, H3⟩, Hr⟩
  ihave H2 := (pointsTo_share (PosShare.mem_left_op_right fullShare)).2 $$ [H2l H2r]
  · isplitl [H2l] <;> iassumption
  isplitr [Hr]
  · isplitl [H1]; · iexact H1
    isplitl [H2]; · iexact H2
    isplitl [H4]; · iexact H4
    isplitl [Hb]; · iexact Hb
    iexact H3
  iexact Hr

set_option backward.isDefEq.respectTransparency.types false in
/-- Region 1 over the thread state: entered with every array at the contents after the first region, left with the
    array z updated. Two of its windows read one array, so its arrays are dealt by hand (entry1, exit1); the rest is
    as for the other regions. -/
def reg1 : Pipeline.RegionSeg (pcfgs (F := F)) GenV.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## Region 2 -/

abbrev E4 : (c : Dev nD) → (b : Ref sig .tc) → Buf (Elt F) ((c : Thread nD τ).loc b) := fun c b => W4 m c b

/-- At the third region's exit each of its arrays holds what the contents after it say. -/
theorem hF2 (c : Dev nD) (w : Fin cfg2.W) : (pdats m 2 c).arrAt w cfg2.N = E4 m c (Pipeline.arrRef spec2 w) := by
  match w with
  | ⟨0, _⟩ => exact ((dat2 (E3 m) c).arrAt_in 0 rfl _).trans ((A_eq2 (E3 m) c 0).trans (W4_of_ne m c main_arg1 (by decide)).symm)
  | ⟨1, _⟩ => exact ((dat2 (E3 m) c).arrAt_in 1 rfl _).trans ((A_eq2 (E3 m) c 1).trans (W4_of_ne m c main_v3 (by decide)).symm)
  | ⟨2, _⟩ => exact (W4_self m c).symm
/-- Every other array is as it was. -/
theorem hrest2 (c : Dev nD) : ∀ b, b ∉ Finset.univ.image (Pipeline.arrRef spec2) → E4 m c b = E3 m c b :=
  fun b hb => W4_of_ne m c b fun e => hb (e ▸ Finset.mem_image.mpr ⟨2, Finset.mem_univ _, rfl⟩)

-- a library lemma stated over the pinned configuration unifies with the printed one only when unification may unfold
-- plain definitions in a metavariable's type
set_option backward.isDefEq.respectTransparency.types false in
/-- Region 2 over the thread state: entered with every array at the contents before it, left with its result array
    updated. Its arrays are split out of the arrays at entry and put back at exit; the generator register goes into
    the region's invariant and comes back; nothing is owed; the kernel has no semaphore of its own. -/
def reg2 : Pipeline.RegionSeg (pcfgs (F := F)) GenV.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) GenV.adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenV.adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch deals a core besides its arrays gives the rest that rides through the segments. -/
theorem rest_of_launch (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R c := by
  iintro ⟨-, HO, -, Hp, -⟩
  isplitl [Hp]; · iexists _; iexact Hp
  iexists ∅; iexact HO

-- the conditional run's implicit arguments are found by unifying its conclusion with this one, which takes unfolding
-- plain definitions in a metavariable's type
set_option backward.isDefEq.respectTransparency.types false in
/-- Every weakly fair execution of the program from memory m with zero counters terminates, nothing faulting; at
    the end the result array holds what the third region wrote and each of the six arguments its launch contents. -/
theorem run (ρ : Dev nD → PrngReg) :
    θ_run defs (onTc (τ := τ) (main (F := F))) ⟨m, fun _ => 0, ρ⟩ (fun r => ∀ c : Dev nD,
      r.2.mem ((c.tc : Thread nD τ).loc main_v4) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hrun := GenV.run_cond (m := m) (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hm : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ bigSep Finset.univ (fun c : Dev nD => R (F := F) c) := bigSep_mono (fun c _ => rest_of_launch (F := F) ρ c)
      iintro ⟨H, -⟩
      imodintro
      iapply hm
      iexact H)
    (hE3 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
  exact (θ_run defs _ _).mono (fun r h c => ⟨(h c).1.trans (outs4 m c), (h c).2⟩) hrun

end Cert.KernelIdeal.Hand

end
-- ==== Proof.Spec.lean ====
/-
  The two programs as functions on the extended reals, written over plain row and column coordinates.

  With y = x·W₁ + b₁ (one row of b₁ added to every row), the kernel forms
      z = (y + (G·y)·W₂) + b₂      and returns      ½ · (G·z),
  while the reference forms x₁ = G·y, x₂ = G·(x₁·W₂ + b₂) and returns (x₁ + x₂) / 2.
  Every product here is a finite sum of products of entries. When every entry is a real number, all sums
  and products are real and the product with G distributes over the sum y + (x₁·W₂ + b₂), which joins the two.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An array of rank 2 read by its row and its column. -/
def cur2 {n0 n1 : Nat} (a : (⟨2, ![n0, n1]⟩ : Shape).Idx → EReal) : Fin n0 → Fin n1 → EReal := fun r c => a (ix2 r c)
/-- An array of rank 1 read by its coordinate. -/
def cur1 {n : Nat} (a : (⟨1, ![n]⟩ : Shape).Idx → EReal) : Fin n → EReal := fun c => a (ix1 c)
/-- A function of row and column as an array of rank 2. -/
def uncur {n0 n1 : Nat} (f : Fin n0 → Fin n1 → EReal) : (⟨2, ![n0, n1]⟩ : Shape).Idx → EReal := fun i => f (i 0) (i 1)

theorem uncur_apply {n0 n1 : Nat} (f : Fin n0 → Fin n1 → EReal) (r : Fin n0) (c : Fin n1) : uncur f (ix2 r c) = f r c := rfl

/-- x·W + b, the row b added to every row. -/
def lin (x : Fin 10000 → Fin 128 → EReal) (W : Fin 128 → Fin 128 → EReal) (b : Fin 128 → EReal) : Fin 10000 → Fin 128 → EReal :=
  fun r c => (∑ k : Fin 128, x r k * W k c) + b c
/-- G·y. -/
def prop (G : Fin 10000 → Fin 10000 → EReal) (y : Fin 10000 → Fin 128 → EReal) : Fin 10000 → Fin 128 → EReal :=
  fun r c => ∑ l : Fin 10000, G r l * y l c
/-- a·W. -/
def mm (a : Fin 10000 → Fin 128 → EReal) (W : Fin 128 → Fin 128 → EReal) : Fin 10000 → Fin 128 → EReal :=
  fun r c => ∑ k : Fin 128, a r k * W k c

/-- The kernel's second array: (y + (G·y)·W₂) + b₂. -/
def kz (G : Fin 10000 → Fin 10000 → EReal) (y : Fin 10000 → Fin 128 → EReal) (W2 : Fin 128 → Fin 128 → EReal) (b2 : Fin 128 → EReal) :
    Fin 10000 → Fin 128 → EReal :=
  fun r c => (y r c + mm (prop G y) W2 r c) + b2 c
/-- The kernel's result: h · (G·z), with h the kernel's scale. -/
def kout (h : EReal) (G : Fin 10000 → Fin 10000 → EReal) (z : Fin 10000 → Fin 128 → EReal) : Fin 10000 → Fin 128 → EReal :=
  fun r c => h * prop G z r c
/-- The kernel, from its six arguments. -/
def kernelSpec (h : EReal) (x : Fin 10000 → Fin 128 → EReal) (G : Fin 10000 → Fin 10000 → EReal) (W1 : Fin 128 → Fin 128 → EReal)
    (b1 : Fin 128 → EReal) (W2 : Fin 128 → Fin 128 → EReal) (b2 : Fin 128 → EReal) : Fin 10000 → Fin 128 → EReal :=
  kout h G (kz G (lin x W1 b1) W2 b2)
/-- The reference, from its six arguments: (x₁ + x₂) / d with x₁ = G·y, x₂ = G·(x₁·W₂ + b₂). -/
def refSpec (d : EReal) (x : Fin 10000 → Fin 128 → EReal) (G : Fin 10000 → Fin 10000 → EReal) (W1 : Fin 128 → Fin 128 → EReal)
    (b1 : Fin 128 → EReal) (W2 : Fin 128 → Fin 128 → EReal) (b2 : Fin 128 → EReal) : Fin 10000 → Fin 128 → EReal :=
  fun r c => Ideal.div (prop G (lin x W1 b1) r c + prop G (fun r' c' => mm (prop G (lin x W1 b1)) W2 r' c' + b2 c') r c) d

end Cert.Spec

end
-- ==== Proof.KI.Pay.lean ====
/-
  The three kernel bodies' stored values at an index, at the ideal values: each is a sum of products along the
  contracted axis of its matrix products, plus its bias row, or scaled by the kernel's constant.
-/
import proofs.«172139_g81741817578253_cont_9to1c4b_728_2_alg».proof.Proof.Gen.KernelIdeal.Skeleton
import proofs.«172139_g81741817578253_cont_9to1c4b_728_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

variable [Cert.KernelIdeal.Facts]

/-! ## The [10000,128] × [128,128] product -/

/-- The left operand's row coordinate is the output's row. -/
private theorem lhsA_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contracted position. -/
private theorem lhsA_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contracted position. -/
private theorem rhsA_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the output's column. -/
private theorem rhsA_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator at (r, c): the sum over the contracted position k of l(r, k) · m(k, c). -/
private theorem matmulA_apply (l : FVec Ideal S10000x128 .f32) (m : FVec Ideal S128x128 .f32) (r : Fin 10000) (c : Fin 128) :
    matmul dot_S10000x128_S128x128_S10000x128_1_0_0_1_n_n none l m (constant (F := Ideal) S10000x128 .f32 0x00000000#32) (ix2 r c)
      = ∑ k : Fin 128, l (ix2 r k) * m (ix2 k c) := by
  show FloatOps.matmul dot_S10000x128_S128x128_S10000x128_1_0_0_1_n_n none l m (constant (F := Ideal) S10000x128 .f32 0x00000000#32) (ix2 r c) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r c) ((contrEquiv1 dot_S10000x128_S128x128_S10000x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S10000x128_S128x128_S10000x128_1_0_0_1_n_n.rhsIdx (ix2 r c) ((contrEquiv1 dot_S10000x128_S128x128_S10000x128_1_0_0_1_n_n 128 rfl rfl).symm k) = ix2 k c := funext fun a => Fin.ext (by
    match a with
    | ⟨0, _⟩ => exact (rhsA_0 _ _).trans hk
    | ⟨1, _⟩ => exact rhsA_1 _ _)
  rw [el, er]

/-! ## The [400,10000] × [10000,128] product -/

/-- The left operand's row coordinate is the output's row. -/
private theorem lhsB_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's column coordinate is the contracted position. -/
private theorem lhsB_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row coordinate is the contracted position. -/
private theorem rhsB_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's column coordinate is the output's column. -/
private theorem rhsB_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product into the zero accumulator at (r, c): the sum over the contracted position k of l(r, k) · m(k, c). -/
private theorem matmulB_apply (l : FVec Ideal S400x10000 .f32) (m : FVec Ideal S10000x128 .f32) (r : Fin 400) (c : Fin 128) :
    matmul dot_S400x10000_S10000x128_S400x128_1_0_0_1_n_n none l m (constant (F := Ideal) S400x128 .f32 0x00000000#32) (ix2 r c)
      = ∑ k : Fin 10000, l (ix2 r k) * m (ix2 k c) := by
  show FloatOps.matmul dot_S400x10000_S10000x128_S400x128_1_0_0_1_n_n none l m (constant (F := Ideal) S400x128 .f32 0x00000000#32) (ix2 r c) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r c) ((contrEquiv1 dot_S400x10000_S10000x128_S400x128_1_0_0_1_n_n 10000 rfl rfl).symm k) = ix2 r k := funext fun a => Fin.ext (by
    match a with
    | ⟨0, _⟩ => exact lhsB_0 _ _
    | ⟨1, _⟩ => exact (lhsB_1 _ _).trans hk)
  have er : dot_S400x10000_S10000x128_S400x128_1_0_0_1_n_n.rhsIdx (ix2 r c) ((contrEquiv1 dot_S400x10000_S10000x128_S400x128_1_0_0_1_n_n 10000 rfl rfl).symm k) = ix2 k c := funext fun a => Fin.ext (by
    match a with
    | ⟨0, _⟩ => exact (rhsB_0 _ _).trans hk
    | ⟨1, _⟩ => exact rhsB_1 _ _)
  rw [el, er]

/-! ## The [400,128] × [128,128] product -/

/-- The left operand's row coordinate is the output's row. -/
private theorem lhsC_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- The left operand's column coordinate is the contracted position. -/
private theorem lhsC_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's row coordinate is the contracted position. -/
private theorem rhsC_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- The right operand's column coordinate is the output's column. -/
private theorem rhsC_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The product into the zero accumulator at (r, c): the sum over the contracted position k of l(r, k) · m(k, c). -/
private theorem matmulC_apply (l : FVec Ideal S400x128 .f32) (m : FVec Ideal S128x128 .f32) (r : Fin 400) (c : Fin 128) :
    matmul dot_S400x128_S128x128_S400x128_1_0_0_1_n_n none l m (constant (F := Ideal) S400x128 .f32 0x00000000#32) (ix2 r c)
      = ∑ k : Fin 128, l (ix2 r k) * m (ix2 k c) := by
  show FloatOps.matmul dot_S400x128_S128x128_S400x128_1_0_0_1_n_n none l m (constant (F := Ideal) S400x128 .f32 0x00000000#32) (ix2 r c) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 r c) ((contrEquiv1 dot_S400x128_S128x128_S400x128_1_0_0_1_n_n 128 rfl rfl).symm k) = ix2 r k := funext fun a => Fin.ext (by
    match a with
    | ⟨0, _⟩ => exact lhsC_0 _ _
    | ⟨1, _⟩ => exact (lhsC_1 _ _).trans hk)
  have er : dot_S400x128_S128x128_S400x128_1_0_0_1_n_n.rhsIdx (ix2 r c) ((contrEquiv1 dot_S400x128_S128x128_S400x128_1_0_0_1_n_n 128 rfl rfl).symm k) = ix2 k c := funext fun a => Fin.ext (by
    match a with
    | ⟨0, _⟩ => exact (rhsC_0 _ _).trans hk
    | ⟨1, _⟩ => exact rhsC_1 _ _)
  rw [el, er]

/-! ## The three stored values -/

/-- The first body: row r of x times column c of w, plus entry c of the bias row. -/
theorem k0_pay1_apply (x : Vec Ideal S10000x128 .f32) (w : Vec Ideal S128x128 .f32) (b : Vec Ideal S1x128 .f32)
    (r : Fin 10000) (c : Fin 128) :
    k0_pay1 (F := Ideal) x w b (ix2 r c) = (∑ k : Fin 128, x (ix2 r k) * w (ix2 k c)) + b (ix2 0 c) := by
  unfold k0_pay1
  rw [addf_apply, matmulA_apply, shapeCast_self, broadcastTo_1b_ab_apply]

/-- The second body on a block g of 400 rows of G, the whole y, the matching block yb of y: yb + (g·y)·w + b. -/
theorem k1_pay1_apply (g : Vec Ideal S400x10000 .f32) (y : Vec Ideal S10000x128 .f32) (yb : Vec Ideal S400x128 .f32)
    (w : Vec Ideal S128x128 .f32) (b : Vec Ideal S1x128 .f32) (r : Fin 400) (c : Fin 128) :
    k1_pay1 (F := Ideal) g y yb w b (ix2 r c)
      = (yb (ix2 r c) + ∑ k : Fin 128, (∑ l : Fin 10000, g (ix2 r l) * y (ix2 l k)) * w (ix2 k c)) + b (ix2 0 c) := by
  unfold k1_pay1
  rw [addf_apply, addf_apply, matmulC_apply, shapeCast_self, shapeCast_self, shapeCast_self, broadcastTo_1b_ab_apply]
  refine congrArg (· + b (ix2 0 c)) (congrArg (yb (ix2 r c) + ·) (Finset.sum_congr rfl fun k _ => ?_))
  rw [matmulB_apply]

/-- The third body on a block g of 400 rows of G and the whole z: the constant 0.5 times g·z. -/
theorem k2_pay1_apply (g : Vec Ideal S400x10000 .f32) (z : Vec Ideal S10000x128 .f32) (r : Fin 400) (c : Fin 128) :
    k2_pay1 (F := Ideal) g z (ix2 r c) = Ideal.ofBits .f32 0x3F000000#32 * ∑ l : Fin 10000, g (ix2 r l) * z (ix2 l c) := by
  unfold k2_pay1
  rw [mulf_apply, broadcast_apply, shapeCast_self, matmulB_apply]
  rfl

end Cert.KernelIdeal.Pay

end
-- ==== Proof.KI.Arr1.lean ====
/-
  The second pallas_call's result array after its 25 points, at the ideal values, entry by entry: the 25 blocks of 400
  rows tile the array, block t holding rows 400·t … 400·t + 399 of (y + (G·y)·W₂) + b₂.
-/
import proofs.«172139_g81741817578253_cont_9to1c4b_728_2_alg».proof.Proof.KI.Reg1
import proofs.«172139_g81741817578253_cont_9to1c4b_728_2_alg».proof.Proof.KI.Pay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- The arrays the region is entered with, at their literal types. -/
abbrev eG1 (c : Dev nD) : Vec Ideal S10000x10000 .f32 := V c main_arg1
abbrev eY1 (c : Dev nD) : Vec Ideal S10000x128 .f32 := V c main_v2
abbrev eW1 (c : Dev nD) : Vec Ideal S128x128 .f32 := V c main_arg4
abbrev eB1 (c : Dev nD) : Vec Ideal S1x128 .f32 := V c main_v1
/-- The result array after the region, at its literal type. -/
abbrev res1 (c : Dev nD) : Vec Ideal S10000x128 .f32 := (dat1 (F := Ideal) V c).arrAt 5 cfg1.N

/-- The offsets of the whole-buffer rectangles are zero on both axes. -/
private theorem off_zero : (![0, 0] : Fin 2 → Nat) = fun _ => 0 := funext fun a => by fin_cases a <;> rfl

/-- Entry (R, C) of (y + (G·y)·W₂) + b₂. -/
private def zEnt (g : Vec Ideal S10000x10000 .f32) (y : Vec Ideal S10000x128 .f32) (w : Vec Ideal S128x128 .f32)
    (b : Vec Ideal S1x128 .f32) (R : Fin 10000) (C : Fin 128) : Ideal .f32 :=
  (y (ix2 R C) + ∑ k : Fin 128, (∑ l : Fin 10000, g (ix2 R l) * y (ix2 l k)) * w (ix2 k C)) + b (ix2 0 C)

/-- The array (y + (G·y)·W₂) + b₂. -/
private def zArr (g : Vec Ideal S10000x10000 .f32) (y : Vec Ideal S10000x128 .f32) (w : Vec Ideal S128x128 .f32)
    (b : Vec Ideal S1x128 .f32) : Vec Ideal S10000x128 .f32 := fun i => zEnt g y w b (i 0) (i 1)

/-- The printed index maps over the grid: the windows on G, on the rows of y and on the result sit at block row t and
    block column 0 at point t; the whole-array windows at block (0, 0). -/
private theorem idx_at : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 400·t … of G. -/
private theorem blk0_apply (c : Dev nD) (t : Fin cfg1.N) (p : Fin 400) (l : Fin 10000) (R : Fin 10000)
    (hR : R.val = 400 * t.val + p.val) :
    (iblk1 V c 0 t : Vec Ideal S400x10000 .f32) (ix2 p l) = eG1 V c (ix2 R l) := by
  obtain ⟨e0, e1, -⟩ := idx_at t
  unfold iblk1
  rw [View.read_apply]
  show V c main_arg1 _ = V c main_arg1 _
  congr 1
  funext a
  apply Fin.ext
  match a with
  | ⟨0, _⟩ => show win1_0.index t (0 : Fin 2) * 400 + 1 * p.val = R.val; rw [e0, hR]; omega
  | ⟨1, _⟩ => show win1_0.index t (1 : Fin 2) * 10000 + 1 * l.val = l.val; rw [e1]; omega

/-- Window 1's block at any point is the whole y. -/
private theorem blk1_apply (c : Dev nD) (t : Fin cfg1.N) (l : Fin 10000) (k : Fin 128) :
    (iblk1 V c 1 t : Vec Ideal S10000x128 .f32) (ix2 l k) = eY1 V c (ix2 l k) := by
  obtain ⟨-, -, e0, e1, -⟩ := idx_at t
  unfold iblk1
  rw [View.read_apply]
  show V c main_v2 _ = V c main_v2 _
  congr 1
  funext a
  apply Fin.ext
  match a with
  | ⟨0, _⟩ => show win1_1.index t (0 : Fin 2) * 10000 + 1 * l.val = l.val; rw [e0]; omega
  | ⟨1, _⟩ => show win1_1.index t (1 : Fin 2) * 128 + 1 * k.val = k.val; rw [e1]; omega

/-- Window 2's block at point t is rows 400·t … of y. -/
private theorem blk2_apply (c : Dev nD) (t : Fin cfg1.N) (p : Fin 400) (q : Fin 128) (R : Fin 10000)
    (hR : R.val = 400 * t.val + p.val) :
    (iblk1 V c 2 t : Vec Ideal S400x128 .f32) (ix2 p q) = eY1 V c (ix2 R q) := by
  obtain ⟨-, -, -, -, e0, e1, -⟩ := idx_at t
  unfold iblk1
  rw [View.read_apply]
  show V c main_v2 _ = V c main_v2 _
  congr 1
  funext a
  apply Fin.ext
  match a with
  | ⟨0, _⟩ => show win1_2.index t (0 : Fin 2) * 400 + 1 * p.val = R.val; rw [e0, hR]; omega
  | ⟨1, _⟩ => show win1_2.index t (1 : Fin 2) * 128 + 1 * q.val = q.val; rw [e1]; omega

/-- Window 3's block at any point is the whole W₂. -/
private theorem blk3_apply (c : Dev nD) (t : Fin cfg1.N) (k : Fin 128) (q : Fin 128) :
    (iblk1 V c 3 t : Vec Ideal S128x128 .f32) (ix2 k q) = eW1 V c (ix2 k q) := by
  obtain ⟨-, -, -, -, -, -, e0, e1, -⟩ := idx_at t
  unfold iblk1
  rw [View.read_apply]
  show V c main_arg4 _ = V c main_arg4 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Window 4's block at any point is the whole bias row. -/
private theorem blk4_apply (c : Dev nD) (t : Fin cfg1.N) (z : Fin 1) (q : Fin 128) :
    (iblk1 V c 4 t : Vec Ideal S1x128 .f32) (ix2 z q) = eB1 V c (ix2 z q) := by
  obtain ⟨-, -, -, -, -, -, -, -, e0, e1, -⟩ := idx_at t
  unfold iblk1
  rw [View.read_apply]
  show V c main_v1 _ = V c main_v1 _
  congr 1
  funext a
  apply Fin.ext
  match a with
  | ⟨0, _⟩ => show win1_4.index t (0 : Fin 2) * 1 + 1 * z.val = z.val; rw [e0]; omega
  | ⟨1, _⟩ => show win1_4.index t (1 : Fin 2) * 128 + 1 * q.val = q.val; rw [e1]; omega

/-- The body's stored value at (p, q), on blocks that are rows 400·t … of G and of y, the whole y, W₂ and the bias row:
    entry (400·t + p, q) of (y + (G·y)·W₂) + b₂. -/
private theorem pay_at (g : Vec Ideal S400x10000 .f32) (y : Vec Ideal S10000x128 .f32) (yb : Vec Ideal S400x128 .f32)
    (w : Vec Ideal S128x128 .f32) (b : Vec Ideal S1x128 .f32)
    (G : Vec Ideal S10000x10000 .f32) (Y : Vec Ideal S10000x128 .f32) (W : Vec Ideal S128x128 .f32) (B : Vec Ideal S1x128 .f32)
    (p : Fin 400) (q : Fin 128) (R : Fin 10000)
    (hg : ∀ l : Fin 10000, g (ix2 p l) = G (ix2 R l))
    (hy : ∀ (l : Fin 10000) (k : Fin 128), y (ix2 l k) = Y (ix2 l k))
    (hyb : yb (ix2 p q) = Y (ix2 R q))
    (hw : ∀ k : Fin 128, w (ix2 k q) = W (ix2 k q))
    (hb : b (ix2 0 q) = B (ix2 0 q)) :
    k1_pay1 (F := Ideal) g y yb w b (ix2 p q) = zEnt G Y W B R q := by
  rw [Cert.KernelIdeal.Pay.k1_pay1_apply, hyb, hb]
  unfold zEnt
  refine congrArg (· + B (ix2 0 q)) (congrArg (Y (ix2 R q) + ·) (Finset.sum_congr rfl fun k _ => ?_))
  rw [hw k]
  refine congrArg (· * W (ix2 k q)) (Finset.sum_congr rfl fun l _ => ?_)
  rw [hg l, hy l k]

/-- The array at (R, C), written out. -/
private theorem zArr_apply (g : Vec Ideal S10000x10000 .f32) (y : Vec Ideal S10000x128 .f32) (w : Vec Ideal S128x128 .f32)
    (b : Vec Ideal S1x128 .f32) (R : Fin 10000) (C : Fin 128) :
    zArr g y w b (ix2 R C)
      = (y (ix2 R C) + ∑ k : Fin 128, (∑ l : Fin 10000, g (ix2 R l) * y (ix2 l k)) * w (ix2 k C)) + b (ix2 0 C) := rfl

/-- The array at (R, C) is its entry. -/
private theorem zArr_ix2 (g : Vec Ideal S10000x10000 .f32) (y : Vec Ideal S10000x128 .f32) (w : Vec Ideal S128x128 .f32)
    (b : Vec Ideal S1x128 .f32) (R : Fin 10000) (C : Fin 128) : zArr g y w b (ix2 R C) = zEnt g y w b R C := rfl

/-- The body's stored value at point t, at (p, q) of its block: entry (400·t + p, q) of (y + (G·y)·W₂) + b₂. -/
private theorem stored_at (c : Dev nD) (t : Fin cfg1.N) (p : Fin 400) (q : Fin 128) (R : Fin 10000)
    (hR : R.val = 400 * t.val + p.val) :
    k1_pay1 (F := Ideal) (iblk1 V c 0 t) (iblk1 V c 1 t) (iblk1 V c 2 t) (iblk1 V c 3 t) (iblk1 V c 4 t) (ix2 p q)
      = zEnt (eG1 V c) (eY1 V c) (eW1 V c) (eB1 V c) R q :=
  pay_at (iblk1 V c 0 t) (iblk1 V c 1 t) (iblk1 V c 2 t) (iblk1 V c 3 t) (iblk1 V c 4 t)
    (eG1 V c) (eY1 V c) (eW1 V c) (eB1 V c) p q R
    (fun l => blk0_apply V c t p l R hR) (fun l k => blk1_apply V c t l k) (blk2_apply V c t p q R hR)
    (fun k => blk3_apply V c t k q) (blk4_apply V c t 0 q)

/-- What point t writes back is block t of (y + (G·y)·W₂) + b₂. -/
private theorem flushed1_eq (c : Dev nD) (t : Fin cfg1.N) :
    (dat1 (F := Ideal) V c).flushed 5 t
      = ((cfg1.win 5).blk t).view.read (Elt Ideal) (zArr (eG1 V c) (eY1 V c) (eW1 V c) (eB1 V c)) := by
  show (cfg1.win 5).cut (grid1.coords t) ((dat1 (F := Ideal) V c).after 5 t) = _
  rw [after1_5]
  unfold out1_5
  rw [View.canon_unit_zero off_zero]
  simp only [View.ld_unit_zero (S := S400x10000) off_zero, View.ld_unit_zero (S := S10000x128) off_zero,
    View.ld_unit_zero (S := S400x128) off_zero, View.ld_unit_zero (S := S128x128) off_zero,
    View.ld_unit_zero (S := S1x128) off_zero]
  have ht : t.val < 25 := lt_of_lt_of_eq t.isLt N_1
  obtain ⟨-, -, -, -, -, -, -, -, -, -, e0, e1⟩ := idx_at t
  funext j
  obtain ⟨p, q, rfl⟩ : ∃ (p : Fin 400) (q : Fin 128), j = ix2 p q := ⟨j 0, j 1, eq_ix2 j⟩
  rw [View.read_apply]
  have hemb : ((cfg1.win 5).blk t).view.emb (ix2 p q) = (ix2 (⟨400 * t.val + p.val, by omega⟩ : Fin 10000) q : S10000x128.Idx) := by
    funext a
    apply Fin.ext
    match a with
    | ⟨0, _⟩ => show win1_5.index t (0 : Fin 2) * 400 + 1 * p.val = 400 * t.val + p.val; rw [e0]; omega
    | ⟨1, _⟩ => show win1_5.index t (1 : Fin 2) * 128 + 1 * q.val = q.val; rw [e1]; omega
  show k1_pay1 (F := Ideal) (iblk1 V c 0 t) (iblk1 V c 1 t) (iblk1 V c 2 t) (iblk1 V c 3 t) (iblk1 V c 4 t) (ix2 p q)
    = zArr (eG1 V c) (eY1 V c) (eW1 V c) (eB1 V c) (((cfg1.win 5).blk t).view.emb (ix2 p q))
  rw [hemb, zArr_ix2]
  exact stored_at V c t p q _ rfl

/-- An index of the result array is in point t's block iff each coordinate is in the block's range on its axis. -/
private theorem mem_blk1 (t : Fin cfg1.N) (i : S10000x128.Idx) :
    i ∈ ((cfg1.win 5).blk t).view.set
      ↔ ∀ a : Fin 2, win1_5.index t a * S400x128.size a ≤ (i a).val
          ∧ (i a).val < win1_5.index t a * S400x128.size a + S400x128.size a := by
  show i ∈ ((View.whole main_v3).slice (win1_5.rect t)).set ↔ _
  rw [View.set_slice_whole, Rect.mem_set_unit]
  exact Iff.rfl

/-- Row r of the result array is in the block of point r / 400, which is written back. -/
private theorem cover1 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, lt_of_lt_of_eq (by omega : (i 0).val / 400 < 25) N_1.symm⟩, rfl⟩
  obtain ⟨-, -, -, -, -, -, -, -, -, -, e0, e1⟩ := idx_at t
  refine ⟨t, flush1_5 t, ?_⟩
  rw [mem_blk1]
  intro a
  match a with
  | ⟨0, _⟩ =>
    show win1_5.index t (0 : Fin 2) * 400 ≤ (i 0).val ∧ (i 0).val < win1_5.index t (0 : Fin 2) * 400 + 400
    rw [e0, ht]; omega
  | ⟨1, _⟩ =>
    show win1_5.index t (1 : Fin 2) * 128 ≤ (i 1).val ∧ (i 1).val < win1_5.index t (1 : Fin 2) * 128 + 128
    rw [e1]; omega

/-- After the region the result array is (y + (G·y)·W₂) + b₂ of the arrays it was entered with. -/
private theorem res1_eq (c : Dev nD) : res1 V c = zArr (eG1 V c) (eY1 V c) (eW1 V c) (eB1 V c) :=
  (dat1 (F := Ideal) V c).arrAt_eq_of_cover 5 (zArr (eG1 V c) (eY1 V c) (eW1 V c) (eB1 V c))
    (fun t _ => flushed1_eq V c t) cover1

/-- After the region the result array holds, at row R and column C, (y + (G·y)·W₂) + b₂ of the arrays it was entered with. -/
theorem arr1_apply (c : Dev nD) (R : Fin 10000) (C : Fin 128) :
    res1 V c (ix2 R C)
      = (eY1 V c (ix2 R C) + ∑ k : Fin 128, (∑ l : Fin 10000, eG1 V c (ix2 R l) * eY1 V c (ix2 l k)) * eW1 V c (ix2 k C))
        + eB1 V c (ix2 0 C) :=
  (congrFun (res1_eq V c) (ix2 R C)).trans (zArr_apply (eG1 V c) (eY1 V c) (eW1 V c) (eB1 V c) R C)

end Cert.KernelIdeal.Hand

end
-- ==== Proof.KI.Arr02.lean ====
/-
  The first and the third pallas_call's result arrays after their regions, at the ideal values, entry by entry: the first
  has one point and one whole-array block, x·W₁ + b₁; the third's 25 blocks of 400 rows tile the array, block t holding
  rows 400·t … 400·t + 399 of 0.5 · (G·z).
-/
import proofs.«172139_g81741817578253_cont_9to1c4b_728_2_alg».proof.Proof.KI.Reg0
import proofs.«172139_g81741817578253_cont_9to1c4b_728_2_alg».proof.Proof.KI.Reg2
import proofs.«172139_g81741817578253_cont_9to1c4b_728_2_alg».proof.Proof.KI.Pay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- The arrays the first region is entered with, at their literal types. -/
abbrev eX0 (c : Dev nD) : Vec Ideal S10000x128 .f32 := V c main_arg0
abbrev eW0 (c : Dev nD) : Vec Ideal S128x128 .f32 := V c main_arg2
abbrev eB0 (c : Dev nD) : Vec Ideal S1x128 .f32 := V c main_v0
/-- Its result array after the region, at its literal type. -/
abbrev res0 (c : Dev nD) : Vec Ideal S10000x128 .f32 := (dat0 (F := Ideal) V c).arrAt 3 cfg0.N
/-- The arrays the third region is entered with, at their literal types. -/
abbrev eG2 (c : Dev nD) : Vec Ideal S10000x10000 .f32 := V c main_arg1
abbrev eZ2 (c : Dev nD) : Vec Ideal S10000x128 .f32 := V c main_v3
/-- Its result array after the region, at its literal type. -/
abbrev res2 (c : Dev nD) : Vec Ideal S10000x128 .f32 := (dat2 (F := Ideal) V c).arrAt 2 cfg2.N

/-! ## The offsets of a whole-buffer rectangle -/

/-- The zero offsets of a whole-buffer rectangle, as the constant function. -/
private theorem zero_offsets : (![0, 0] : Fin 2 → Nat) = fun _ => 0 := funext fun a => by fin_cases a <;> rfl

/-! ## The first region: one point, one whole-array block -/

/-- x·W₁ + b₁, entry by entry: the array the first region leaves. -/
private abbrev xWb (x : Vec Ideal S10000x128 .f32) (w : Vec Ideal S128x128 .f32) (b : Vec Ideal S1x128 .f32) : Vec Ideal S10000x128 .f32 :=
  fun i => (∑ k : Fin 128, x (ix2 ⟨(i 0).val, idx2_lt0 i⟩ k) * w (ix2 k ⟨(i 1).val, idx2_lt1 i⟩)) + b (ix2 (0 : Fin 1) ⟨(i 1).val, idx2_lt1 i⟩)

/-- x·W₁ + b₁ at an index whose coordinates are r and j. -/
private theorem xWb_apply (x : Vec Ideal S10000x128 .f32) (w : Vec Ideal S128x128 .f32) (b : Vec Ideal S1x128 .f32) (i : S10000x128.Idx)
    (r : Fin 10000) (j : Fin 128) (h0 : (i 0).val = r.val) (h1 : (i 1).val = j.val) :
    xWb x w b i = (∑ k : Fin 128, x (ix2 r k) * w (ix2 k j)) + b (ix2 (0 : Fin 1) j) := by
  have e0 : (⟨(i 0).val, idx2_lt0 i⟩ : Fin 10000) = r := Fin.ext h0
  have e1 : (⟨(i 1).val, idx2_lt1 i⟩ : Fin 128) = j := Fin.ext h1
  show (∑ k : Fin 128, x (ix2 ⟨(i 0).val, idx2_lt0 i⟩ k) * w (ix2 k ⟨(i 1).val, idx2_lt1 i⟩)) + b (ix2 (0 : Fin 1) ⟨(i 1).val, idx2_lt1 i⟩) = _
  rw [e0, e1]

/-- The printed block indices at the one point: every window sits at block 0 on both axes. -/
private theorem block_indices0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The first window's block is the whole of x. -/
private theorem block_of_x (c : Dev nD) (t : Fin cfg0.N) (p : Fin 10000) (k : Fin 128) :
    iblk0 V c 0 t (ix2 p k) = eX0 V c (ix2 p k) := by
  obtain ⟨e0, e1, -⟩ := block_indices0 t
  unfold iblk0
  rw [View.read_apply]
  show V c main_arg0 (((cfg0.win 0).blk t).view.emb (ix2 p k)) = V c main_arg0 _
  congr 1
  funext a; apply Fin.ext
  match a with
  | ⟨0, _⟩ => show win0_0.index t (0 : Fin 2) * 10000 + 1 * p.val = p.val; omega
  | ⟨1, _⟩ => show win0_0.index t (1 : Fin 2) * 128 + 1 * k.val = k.val; omega

/-- The second window's block is the whole of W₁. -/
private theorem block_of_w (c : Dev nD) (t : Fin cfg0.N) (k : Fin 128) (q : Fin 128) :
    iblk0 V c 1 t (ix2 k q) = eW0 V c (ix2 k q) := by
  obtain ⟨-, -, e0, e1, -⟩ := block_indices0 t
  unfold iblk0
  rw [View.read_apply]
  show V c main_arg2 (((cfg0.win 1).blk t).view.emb (ix2 k q)) = V c main_arg2 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The third window's block is the whole bias row. -/
private theorem block_of_b (c : Dev nD) (t : Fin cfg0.N) (o : Fin 1) (q : Fin 128) :
    iblk0 V c 2 t (ix2 o q) = eB0 V c (ix2 o q) := by
  obtain ⟨-, -, -, -, e0, e1, -⟩ := block_indices0 t
  unfold iblk0
  rw [View.read_apply]
  show V c main_v0 (((cfg0.win 2).blk t).view.emb (ix2 o q)) = V c main_v0 _
  congr 1
  funext a; apply Fin.ext
  match a with
  | ⟨0, _⟩ => show win0_2.index t (0 : Fin 2) * 1 + 1 * o.val = o.val; omega
  | ⟨1, _⟩ => show win0_2.index t (1 : Fin 2) * 128 + 1 * q.val = q.val; omega

/-- What the one point writes back is its block, the whole, of x·W₁ + b₁ of the arrays the region is entered with. -/
private theorem written_back0 (c : Dev nD) (t : Fin cfg0.N) :
    (dat0 (F := Ideal) V c).flushed 3 t = ((cfg0.win 3).blk t).view.read (Elt Ideal) (xWb (eX0 V c) (eW0 V c) (eB0 V c)) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x128) zero_offsets,
    View.ld_unit_zero (S := S1x128) zero_offsets]
  funext y
  obtain ⟨p, q, rfl⟩ : ∃ (p : Fin 10000) (q : Fin 128), y = ix2 p q := ⟨y 0, y 1, eq_ix2 y⟩
  obtain ⟨-, -, -, -, -, -, e0, e1⟩ := block_indices0 t
  show k0_pay1 (F := Ideal) (iblk0 V c 0 t) (iblk0 V c 1 t) (iblk0 V c 2 t) (ix2 p q)
    = xWb (eX0 V c) (eW0 V c) (eB0 V c) (((cfg0.win 3).blk t).view.emb (ix2 p q))
  refine (Pay.k0_pay1_apply _ _ _ p q).trans ?_
  refine Eq.trans ?_ (xWb_apply _ _ _ _ p q ?_ ?_).symm
  · rw [block_of_b V c t 0 q]
    refine congrArg (· + eB0 V c (ix2 (0 : Fin 1) q)) (Finset.sum_congr rfl fun k _ => ?_)
    rw [block_of_x V c t p k, block_of_w V c t k q]
  · show win0_3.index t (0 : Fin 2) * 10000 + 1 * p.val = p.val; omega
  · show win0_3.index t (1 : Fin 2) * 128 + 1 * q.val = q.val; omega

/-- An index of the result array is in the point's block iff each coordinate is in the block's range on its axis. -/
private theorem mem_block0 (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v2).slice (win0_3.rect t)).set ↔ _
  rw [View.set_slice_whole, Rect.mem_set_unit]
  exact Iff.rfl

/-- The one block is the whole result array. -/
private theorem block_covers0 (i : S10000x128.Idx) :
    ∃ t : Fin cfg0.N, (cfg0.win 3).flush t = true ∧ i ∈ ((cfg0.win 3).blk t).view.set := by
  have hi0 : (i 0).val < 10000 := idx2_lt0 i
  have hi1 : (i 1).val < 128 := idx2_lt1 i
  obtain ⟨-, -, -, -, -, -, e0, e1⟩ := block_indices0 t0_0
  refine ⟨t0_0, flush0_3 t0_0, ?_⟩
  rw [mem_block0]
  intro a
  match a with
  | ⟨0, _⟩ => show win0_3.index t0_0 (0 : Fin 2) * 10000 ≤ (i 0).val ∧ (i 0).val < win0_3.index t0_0 (0 : Fin 2) * 10000 + 10000; omega
  | ⟨1, _⟩ => show win0_3.index t0_0 (1 : Fin 2) * 128 ≤ (i 1).val ∧ (i 1).val < win0_3.index t0_0 (1 : Fin 2) * 128 + 128; omega

/-- So the result array ends holding x·W₁ + b₁. -/
private theorem result0 (c : Dev nD) : (dat0 (F := Ideal) V c).arrAt 3 cfg0.N = xWb (eX0 V c) (eW0 V c) (eB0 V c) :=
  (dat0 V c).arrAt_eq_of_cover 3 (xWb (eX0 V c) (eW0 V c) (eB0 V c)) (fun t _ => written_back0 V c t) block_covers0

/-! ## The third region: 25 blocks of 400 rows -/

/-- Half of the product G·z, entry by entry: the array the third region leaves. -/
private abbrev halfGz (g : Vec Ideal S10000x10000 .f32) (z : Vec Ideal S10000x128 .f32) : Vec Ideal S10000x128 .f32 :=
  fun i => Ideal.ofBits .f32 0x3F000000#32 * ∑ l : Fin 10000, g (ix2 ⟨(i 0).val, idx2_lt0 i⟩ l) * z (ix2 l ⟨(i 1).val, idx2_lt1 i⟩)

/-- The printed block indices over the 25 points: the row-block windows sit at block row t, column block 0; the whole-array window at block 0. -/
private theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Half of G·z at an index whose coordinates are r and k. -/
private theorem halfGz_apply (g : Vec Ideal S10000x10000 .f32) (z : Vec Ideal S10000x128 .f32) (i : S10000x128.Idx)
    (r : Fin 10000) (k : Fin 128) (h0 : (i 0).val = r.val) (h1 : (i 1).val = k.val) :
    halfGz g z i = Ideal.ofBits .f32 0x3F000000#32 * ∑ l : Fin 10000, g (ix2 r l) * z (ix2 l k) := by
  have e0 : (⟨(i 0).val, idx2_lt0 i⟩ : Fin 10000) = r := Fin.ext h0
  have e1 : (⟨(i 1).val, idx2_lt1 i⟩ : Fin 128) = k := Fin.ext h1
  show _ * ∑ l : Fin 10000, g (ix2 ⟨(i 0).val, idx2_lt0 i⟩ l) * z (ix2 l ⟨(i 1).val, idx2_lt1 i⟩) = _
  rw [e0, e1]

/-- The first window's block at point t holds rows 400·t … 400·t + 399 of G. -/
private theorem block_of_G (c : Dev nD) (t : Fin cfg2.N) (p : Fin 400) (l : Fin 10000) (h : 400 * t.val + p.val < 10000) :
    iblk2 V c 0 t (ix2 p l) = eG2 V c (ix2 ⟨400 * t.val + p.val, h⟩ l) := by
  obtain ⟨e0, e1, -⟩ := block_indices2 t
  unfold iblk2
  rw [View.read_apply]
  show V c main_arg1 (((cfg2.win 0).blk t).view.emb (ix2 p l)) = V c main_arg1 _
  congr 1
  funext a; apply Fin.ext
  match a with
  | ⟨0, _⟩ => show win2_0.index t (0 : Fin 2) * 400 + 1 * p.val = 400 * t.val + p.val; omega
  | ⟨1, _⟩ => show win2_0.index t (1 : Fin 2) * 10000 + 1 * l.val = l.val; omega

/-- The second window's block at every point is the whole of z. -/
private theorem block_of_z (c : Dev nD) (t : Fin cfg2.N) (l : Fin 10000) (q : Fin 128) :
    iblk2 V c 1 t (ix2 l q) = eZ2 V c (ix2 l q) := by
  obtain ⟨-, -, e0, e1, -⟩ := block_indices2 t
  unfold iblk2
  rw [View.read_apply]
  show V c main_v3 (((cfg2.win 1).blk t).view.emb (ix2 l q)) = V c main_v3 _
  congr 1
  funext a; apply Fin.ext
  match a with
  | ⟨0, _⟩ => show win2_1.index t (0 : Fin 2) * 10000 + 1 * l.val = l.val; omega
  | ⟨1, _⟩ => show win2_1.index t (1 : Fin 2) * 128 + 1 * q.val = q.val; omega

/-- What point t writes back is block t of half of G·z of the arrays the region is entered with. -/
private theorem written_back2 (c : Dev nD) (t : Fin cfg2.N) :
    (dat2 (F := Ideal) V c).flushed 2 t = ((cfg2.win 2).blk t).view.read (Elt Ideal) (halfGz (eG2 V c) (eZ2 V c)) := by
  show (cfg2.win 2).cut (grid2.coords t) ((dat2 V c).after 2 t) = _
  rw [after2_2]
  unfold out2_2
  rw [View.canon_unit_zero zero_offsets]
  simp only [View.ld_unit_zero (S := S400x10000) zero_offsets, View.ld_unit_zero (S := S10000x128) zero_offsets]
  funext y
  obtain ⟨p, q, rfl⟩ : ∃ (p : Fin 400) (q : Fin 128), y = ix2 p q := ⟨y 0, y 1, eq_ix2 y⟩
  obtain ⟨-, -, -, -, e0, e1⟩ := block_indices2 t
  have ht : t.val < 25 := lt_of_lt_of_eq t.isLt N_2
  have hp : p.val < 400 := p.isLt
  have hr : 400 * t.val + p.val < 10000 := by omega
  show k2_pay1 (F := Ideal) (iblk2 V c 0 t) (iblk2 V c 1 t) (ix2 p q) = halfGz (eG2 V c) (eZ2 V c) (((cfg2.win 2).blk t).view.emb (ix2 p q))
  refine (Pay.k2_pay1_apply _ _ p q).trans ?_
  refine Eq.trans ?_ (halfGz_apply _ _ _ ⟨400 * t.val + p.val, hr⟩ q ?_ ?_).symm
  · congr 1
    refine Finset.sum_congr rfl fun l _ => ?_
    rw [block_of_G V c t p l hr, block_of_z V c t l q]
  · show win2_2.index t (0 : Fin 2) * 400 + 1 * p.val = 400 * t.val + p.val; omega
  · show win2_2.index t (1 : Fin 2) * 128 + 1 * q.val = q.val; omega

/-- An index of the result array is in point t's block iff each coordinate is in the block's range on its axis. -/
private theorem mem_block2 (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v4).slice (win2_2.rect t)).set ↔ _
  rw [View.set_slice_whole, Rect.mem_set_unit]
  exact Iff.rfl

/-- The 25 blocks of 400 rows tile the result array: row r is in the block of point r / 400. -/
private theorem blocks_cover2 (i : S10000x128.Idx) :
    ∃ t : Fin cfg2.N, (cfg2.win 2).flush t = true ∧ i ∈ ((cfg2.win 2).blk t).view.set := by
  have hi0 : (i 0).val < 10000 := idx2_lt0 i
  have hi1 : (i 1).val < 128 := idx2_lt1 i
  obtain ⟨t, ht⟩ : ∃ t : Fin cfg2.N, t.val = (i 0).val / 400 :=
    ⟨⟨(i 0).val / 400, lt_of_lt_of_eq (by omega : (i 0).val / 400 < 25) N_2.symm⟩, rfl⟩
  obtain ⟨-, -, -, -, e0, e1⟩ := block_indices2 t
  refine ⟨t, flush2_2 t, ?_⟩
  rw [mem_block2]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 128 ≤ (i 1).val ∧ (i 1).val < win2_2.index t (1 : Fin 2) * 128 + 128; omega

/-- So the result array ends holding half of G·z. -/
private theorem result2 (c : Dev nD) : (dat2 (F := Ideal) V c).arrAt 2 cfg2.N = halfGz (eG2 V c) (eZ2 V c) :=
  (dat2 V c).arrAt_eq_of_cover 2 (halfGz (eG2 V c) (eZ2 V c)) (fun t _ => written_back2 V c t) blocks_cover2

/-- After the first region the result array holds, at row R and column C, x·W₁ + b₁ of the arrays it was entered with. -/
theorem arr0_apply (c : Dev nD) (R : Fin 10000) (C : Fin 128) :
    res0 V c (ix2 R C) = (∑ k : Fin 128, eX0 V c (ix2 R k) * eW0 V c (ix2 k C)) + eB0 V c (ix2 0 C) := by
  exact (congrFun (result0 V c) (ix2 R C)).trans (xWb_apply _ _ _ _ R C rfl rfl)

/-- After the third region the result array holds, at row R and column C, 0.5 · (G·z) of the arrays it was entered with. -/
theorem arr2_apply (c : Dev nD) (R : Fin 10000) (C : Fin 128) :
    res2 V c (ix2 R C) = Ideal.ofBits .f32 0x3F000000#32 * ∑ l : Fin 10000, eG2 V c (ix2 R l) * eZ2 V c (ix2 l C) := by
  exact (congrFun (result2 V c) (ix2 R C)).trans (halfGz_apply _ _ _ R C rfl rfl)

end Cert.KernelIdeal.Hand

end
-- ==== Proof.KI.Value.lean ====
/-
  The kernel's result array as the specification's function of the six arguments: the third region's array read
  through the second's and the first's, every array between them traced back to the launch contents, and the two
  bias rows read off the reshaped bias vectors.
-/
import proofs.«172139_g81741817578253_cont_9to1c4b_728_2_alg».proof.Proof.KI.Run
import proofs.«172139_g81741817578253_cont_9to1c4b_728_2_alg».proof.Proof.KI.Arr1
import proofs.«172139_g81741817578253_cont_9to1c4b_728_2_alg».proof.Proof.KI.Arr02
import proofs.«172139_g81741817578253_cont_9to1c4b_728_2_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

variable (m : (ℓ : Loc nD τ sig) → Buf (Elt Ideal) ℓ)

/-- The six arguments at their literal types. -/
abbrev aX (c : Dev nD) : Vec Ideal S10000x128 .f32 := m ((c : Thread nD τ).loc main_arg0)
abbrev aG (c : Dev nD) : Vec Ideal S10000x10000 .f32 := m ((c : Thread nD τ).loc main_arg1)
abbrev aW1 (c : Dev nD) : Vec Ideal S128x128 .f32 := m ((c : Thread nD τ).loc main_arg2)
abbrev aB1 (c : Dev nD) : Vec Ideal S128 .f32 := m ((c : Thread nD τ).loc main_arg3)
abbrev aW2 (c : Dev nD) : Vec Ideal S128x128 .f32 := m ((c : Thread nD τ).loc main_arg4)
abbrev aB2 (c : Dev nD) : Vec Ideal S128 .f32 := m ((c : Thread nD τ).loc main_arg5)

/-! ## The arrays the regions are entered with, traced back -/

theorem E1_arg0 (c : Dev nD) : eX0 (E1 m) c = aX m c := GenV.V1_of m c main_arg0 (by decide)
theorem E1_arg2 (c : Dev nD) : eW0 (E1 m) c = aW1 m c := GenV.V1_of m c main_arg2 (by decide)
theorem E2_arg1 (c : Dev nD) : eG1 (E2 m) c = aG m c := (W2_of_ne m c main_arg1 (by decide)).trans (GenV.V1_of m c main_arg1 (by decide))
theorem E2_arg4 (c : Dev nD) : eW1 (E2 m) c = aW2 m c := (W2_of_ne m c main_arg4 (by decide)).trans (GenV.V1_of m c main_arg4 (by decide))
theorem E2_v2 (c : Dev nD) : eY1 (E2 m) c = res0 (E1 m) c := W2_self m c
theorem E3_arg1 (c : Dev nD) : eG2 (E3 m) c = aG m c :=
  (W3_of_ne m c main_arg1 (by decide)).trans ((W2_of_ne m c main_arg1 (by decide)).trans (GenV.V1_of m c main_arg1 (by decide)))
theorem E3_v3 (c : Dev nD) : eZ2 (E3 m) c = res1 (E2 m) c := W3_self m c

/-- The first bias row: the reshape of b₁ to one row. -/
theorem E1_v0 (c : Dev nD) (C : Fin 128) : eB0 (E1 m) c (ix2 0 C) = aB1 m c (ix1 C) := by
  have e : eB0 (E1 m) c = shapeCast S1x128 (aB1 m c) shapeCasts_S128_S1x128 := by
    dsimp only [eB0, E1, GenV.V1, GenV.V0, hostOps0]; after_results; rfl
  rw [e]
  exact shapeCast_apply _ _ _ _ (by rw [Shape.rowMajor_val_one, Shape.rowMajor_val_two]; show C.val = (0 : Fin 1).val * _ + C.val; simp)
/-- The second bias row: the reshape of b₂ to one row, untouched by the first region. -/
theorem E2_v1 (c : Dev nD) (C : Fin 128) : eB1 (E2 m) c (ix2 0 C) = aB2 m c (ix1 C) := by
  have e : eB1 (E2 m) c = shapeCast S1x128 (aB2 m c) shapeCasts_S128_S1x128 := by
    refine (W2_of_ne m c main_v1 (by decide)).trans ?_
    dsimp only [GenV.V1, GenV.V0, hostOps0]; after_results; rfl
  rw [e]
  exact shapeCast_apply _ _ _ _ (by rw [Shape.rowMajor_val_one, Shape.rowMajor_val_two]; show C.val = (0 : Fin 1).val * _ + C.val; simp)

/-! ## The result -/

/-- The first region's result, the array y, at row R and column C. -/
theorem res0_eq (c : Dev nD) (R : Fin 10000) (C : Fin 128) :
    res0 (E1 m) c (ix2 R C) = lin (cur2 (aX m c)) (cur2 (aW1 m c)) (cur1 (aB1 m c)) R C := by
  rw [arr0_apply, E1_arg0, E1_arg2, E1_v0]; rfl

/-- The kernel's result array is the specification's function of the launch contents of the six arguments, the scale
    the word of 0.5. -/
theorem o4_eq (c : Dev nD) :
    o4 m c = uncur (kernelSpec (Ideal.ofBits .f32 0x3F000000#32) (cur2 (aX m c)) (cur2 (aG m c)) (cur2 (aW1 m c)) (cur1 (aB1 m c))
      (cur2 (aW2 m c)) (cur1 (aB2 m c))) := by
  funext i
  obtain ⟨R, C, rfl⟩ : ∃ (R : Fin 10000) (C : Fin 128), i = ix2 R C := ⟨i 0, i 1, eq_ix2 i⟩
  rw [uncur_apply]
  show res2 (E3 m) c (ix2 R C) = _
  rw [arr2_apply, E3_arg1, E3_v3]
  unfold kernelSpec kout prop
  refine congrArg _ (Finset.sum_congr rfl fun l _ => congrArg _ ?_)
  rw [arr1_apply, E2_arg1, E2_arg4, E2_v2, E2_v1]
  unfold kz mm prop
  simp only [res0_eq]
  rfl

end Cert.KernelIdeal.Hand

end
-- ==== Proof.RefSpec.lean ====
/-
  The reference's run with its result named: the array (x₁ + x₂) / 2 of the specification, from the launch contents
  of the six arguments.
-/
import proofs.«172139_g81741817578253_cont_9to1c4b_728_2_alg».proof.Proof.Gen.ReferenceIdeal.Run
import proofs.«172139_g81741817578253_cont_9to1c4b_728_2_alg».proof.Proof.Gen.ReferenceIdeal.Read
import proofs.«172139_g81741817578253_cont_9to1c4b_728_2_alg».proof.Proof.Spec

noncomputable section

namespace Cert.ReferenceIdeal.RefValue

open Idealize.ShloMosaic Idealize.ShloMosaic.ValueIdx Idealize.ShloMosaic.TcCoe Idealize.SL.Sem Cert.ReferenceIdeal Cert.Spec

section Stages

open Cert.ReferenceIdeal.Read

private theorem lidx_v0 (r : Fin 10000) (c : Fin 128) (k : Fin 128) : lidx_main_v0 (ix2 r c) k = ix2 r k :=
  funext fun a => Fin.ext (by match a with | ⟨0, _⟩ => rfl | ⟨1, _⟩ => rfl)
private theorem ridx_v0 (r : Fin 10000) (c : Fin 128) (k : Fin 128) : ridx_main_v0 (ix2 r c) k = ix2 k c :=
  funext fun a => Fin.ext (by match a with | ⟨0, _⟩ => rfl | ⟨1, _⟩ => rfl)
private theorem idx_v2 (r : Fin 10000) (c : Fin 128) : idx_main_v2 (ix2 r c) = ix2 (0 : Fin 1) c :=
  funext fun a => Fin.ext (by match a with | ⟨0, _⟩ => rfl | ⟨1, _⟩ => rfl)
private theorem idx_v1 (z : Fin 1) (c : Fin 128) : idx_main_v1 (ix2 z c) = ix1 c :=
  funext fun a => Fin.ext (by match a with | ⟨0, _⟩ => rfl)
private theorem lidx_v4 (r : Fin 10000) (c : Fin 128) (l : Fin 10000) : lidx_main_v4 (ix2 r c) l = ix2 r l :=
  funext fun a => Fin.ext (by match a with | ⟨0, _⟩ => rfl | ⟨1, _⟩ => rfl)
private theorem ridx_v4 (r : Fin 10000) (c : Fin 128) (l : Fin 10000) : ridx_main_v4 (ix2 r c) l = ix2 l c :=
  funext fun a => Fin.ext (by match a with | ⟨0, _⟩ => rfl | ⟨1, _⟩ => rfl)
private theorem lidx_v5 (r : Fin 10000) (c : Fin 128) (k : Fin 128) : lidx_main_v5 (ix2 r c) k = ix2 r k :=
  funext fun a => Fin.ext (by match a with | ⟨0, _⟩ => rfl | ⟨1, _⟩ => rfl)
private theorem ridx_v5 (r : Fin 10000) (c : Fin 128) (k : Fin 128) : ridx_main_v5 (ix2 r c) k = ix2 k c :=
  funext fun a => Fin.ext (by match a with | ⟨0, _⟩ => rfl | ⟨1, _⟩ => rfl)
private theorem idx_v7 (r : Fin 10000) (c : Fin 128) : idx_main_v7 (ix2 r c) = ix2 (0 : Fin 1) c :=
  funext fun a => Fin.ext (by match a with | ⟨0, _⟩ => rfl | ⟨1, _⟩ => rfl)
private theorem idx_v6 (z : Fin 1) (c : Fin 128) : idx_main_v6 (ix2 z c) = ix1 c :=
  funext fun a => Fin.ext (by match a with | ⟨0, _⟩ => rfl)
private theorem lidx_v9 (r : Fin 10000) (c : Fin 128) (l : Fin 10000) : lidx_main_v9 (ix2 r c) l = ix2 r l :=
  funext fun a => Fin.ext (by match a with | ⟨0, _⟩ => rfl | ⟨1, _⟩ => rfl)
private theorem ridx_v9 (r : Fin 10000) (c : Fin 128) (l : Fin 10000) : ridx_main_v9 (ix2 r c) l = ix2 l c :=
  funext fun a => Fin.ext (by match a with | ⟨0, _⟩ => rfl | ⟨1, _⟩ => rfl)

/-- y = x·W₁ + b₁ at a row and a column. -/
private theorem v3_at (x0 : (⟨S10000x128, .f32⟩ : BufTy).Contents (Elt Ideal)) (x2 : (⟨S128x128, .f32⟩ : BufTy).Contents (Elt Ideal))
    (x3 : (⟨S128, .f32⟩ : BufTy).Contents (Elt Ideal)) (r : Fin 10000) (c : Fin 128) :
    val_main_v3 (F := Ideal) x0 x2 x3 (ix2 r c) = lin (cur2 x0) (cur2 x2) (cur1 x3) r c := by
  rw [val_main_v3_apply, val_main_v0_apply, val_main_v2_apply, idx_v2, val_main_v1_apply, idx_v1]
  simp only [lidx_v0, ridx_v0, Ideal.addf_def, lin, cur2, cur1]

/-- x₁ = G·y at a row and a column. -/
private theorem v4_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) (r : Fin 10000) (c : Fin 128) :
    val_main_v4 (F := Ideal) x0 x1 x2 x3 (ix2 r c) = prop (cur2 x1) (lin (cur2 x0) (cur2 x2) (cur1 x3)) r c := by
  rw [val_main_v4_apply]
  unfold prop
  refine Finset.sum_congr rfl fun l _ => ?_
  rw [lidx_v4, ridx_v4, v3_at]
  rfl

/-- x₁·W₂ + b₂ at a row and a column. -/
private theorem v8_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (r : Fin 10000) (c : Fin 128) :
    val_main_v8 (F := Ideal) x0 x1 x2 x3 x4 x5 (ix2 r c)
      = mm (prop (cur2 x1) (lin (cur2 x0) (cur2 x2) (cur1 x3))) (cur2 x4) r c + cur1 x5 c := by
  rw [val_main_v8_apply, val_main_v5_apply, val_main_v7_apply, idx_v7, val_main_v6_apply, idx_v6, Ideal.addf_def]
  unfold mm
  refine congrArg₂ (· + ·) (Finset.sum_congr rfl fun k _ => ?_) rfl
  rw [lidx_v5, ridx_v5, v4_at]
  rfl

/-- x₂ = G·(x₁·W₂ + b₂) at a row and a column. -/
private theorem v9_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (r : Fin 10000) (c : Fin 128) :
    val_main_v9 (F := Ideal) x0 x1 x2 x3 x4 x5 (ix2 r c)
      = prop (cur2 x1) (fun r' c' => mm (prop (cur2 x1) (lin (cur2 x0) (cur2 x2) (cur1 x3))) (cur2 x4) r' c' + cur1 x5 c') r c := by
  rw [val_main_v9_apply]
  unfold prop
  refine Finset.sum_congr rfl fun l _ => ?_
  rw [lidx_v9, ridx_v9, v8_at]
  rfl

/-- The reference's last stage at a row and a column is the specification's function of the six arguments. -/
theorem ref_value (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (r : Fin 10000) (c : Fin 128) :
    val_main_v12 (F := Ideal) x0 x1 x2 x3 x4 x5 (ix2 r c)
      = refSpec (Ideal.ofBits .f32 0x40000000#32) (cur2 x0) (cur2 x1) (cur2 x2) (cur1 x3) (cur2 x4) (cur1 x5) r c := by
  rw [val_main_v12_apply, val_main_v10_apply, val_main_v11_apply, val_main_cst_apply, v4_at, v9_at,
    Ideal.hostDivf_def, Ideal.addf_def, Ideal.ofBits_def]
  rfl

end Stages

variable [Cert.ReferenceIdeal.Facts]

/-- Every weakly fair execution of the reference terminates with its result array the specification's function of the
    launch contents of the six arguments (the divisor the word of 2.0), the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
        = uncur (refSpec (Ideal.ofBits .f32 0x40000000#32)
            (cur2 (m ((c.tc : Thread nD τ).loc main_arg0))) (cur2 (m ((c.tc : Thread nD τ).loc main_arg1)))
            (cur2 (m ((c.tc : Thread nD τ).loc main_arg2))) (cur1 (m ((c.tc : Thread nD τ).loc main_arg3)))
            (cur2 (m ((c.tc : Thread nD τ).loc main_arg4))) (cur1 (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun _ h c => ⟨?_, (h c).2⟩) (Cert.ReferenceIdeal.Value.run (F := Ideal) m ρ)
  rw [(h c).1, Read.val_main_v12_eq]
  funext i
  obtain ⟨r, c', rfl⟩ : ∃ r c', i = ix2 r c' := ⟨i 0, i 1, eq_ix2 i⟩
  rw [uncur_apply, ref_value]

end Cert.ReferenceIdeal.RefValue

end
-- ==== Proof.Algebra.lean ====
/-
  The law that joins the two programs: over real entries, ½·(G·(y + x₁·W₂ + b₂)) = (G·y + G·(x₁·W₂ + b₂)) / 2.
-/
import proofs.«172139_g81741817578253_cont_9to1c4b_728_2_alg».proof.Proof.Spec
import Mathlib.Data.EReal.Basic
import Mathlib.Algebra.BigOperators.Ring.Finset
import Mathlib.Algebra.BigOperators.Group.Finset.Basic

noncomputable section

namespace Cert.Spec

open Idealize.ShloMosaic Idealize.ShloMosaic.ValueIdx

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The bit pattern 0x3F000000 is the real one half. -/
private theorem ofBits_half : Ideal.ofBits .f32 0x3F000000#32 = ((1 / 2 : ℝ) : EReal) := by
  simp [Ideal.ofBits, Ideal.ieee, -EReal.coe_mul]; norm_num

/-- The bit pattern 0x40000000 is the real two. -/
private theorem ofBits_two : Ideal.ofBits .f32 0x40000000#32 = ((2 : ℝ) : EReal) := by
  simp [Ideal.ofBits, Ideal.ieee, -EReal.coe_mul]; norm_num

/-- x·W + b on real entries is real. -/
private theorem lin_coe (x : Fin 10000 → Fin 128 → ℝ) (W : Fin 128 → Fin 128 → ℝ) (b : Fin 128 → ℝ) :
    lin (fun r c => (x r c : EReal)) (fun r c => (W r c : EReal)) (fun c => (b c : EReal))
      = fun r c => (((∑ k : Fin 128, x r k * W k c) + b c : ℝ) : EReal) := by
  funext r c
  simp only [lin, EReal.coe_add, coe_sum, EReal.coe_mul]

/-- G·y on real entries is real. -/
private theorem prop_coe (G : Fin 10000 → Fin 10000 → ℝ) (y : Fin 10000 → Fin 128 → ℝ) :
    prop (fun r c => (G r c : EReal)) (fun r c => (y r c : EReal))
      = fun r c => ((∑ l : Fin 10000, G r l * y l c : ℝ) : EReal) := by
  funext r c
  simp only [prop, coe_sum, EReal.coe_mul]

/-- a·W on real entries is real. -/
private theorem mm_coe (a : Fin 10000 → Fin 128 → ℝ) (W : Fin 128 → Fin 128 → ℝ) :
    mm (fun r c => (a r c : EReal)) (fun r c => (W r c : EReal))
      = fun r c => ((∑ k : Fin 128, a r k * W k c : ℝ) : EReal) := by
  funext r c
  simp only [mm, coe_sum, EReal.coe_mul]

/-- (y + (G·y)·W₂) + b₂ on real entries is real. -/
private theorem kz_coe (G : Fin 10000 → Fin 10000 → ℝ) (y : Fin 10000 → Fin 128 → ℝ) (W2 : Fin 128 → Fin 128 → ℝ) (b2 : Fin 128 → ℝ) :
    kz (fun r c => (G r c : EReal)) (fun r c => (y r c : EReal)) (fun r c => (W2 r c : EReal)) (fun c => (b2 c : EReal))
      = fun r c => (((y r c + ∑ k : Fin 128, (∑ l : Fin 10000, G r l * y l k) * W2 k c) + b2 c : ℝ) : EReal) := by
  funext r c
  simp only [kz, prop_coe, mm_coe, EReal.coe_add]

/-- The product with G distributes over a sum of three terms, and one half commutes out:
    over any finite index type, ½·Σ g·((y + m) + b) = (Σ g·y + Σ g·(m + b))·½. -/
private theorem real_law {ι : Type*} [Fintype ι] (g y m b : ι → ℝ) :
    (1 / 2 : ℝ) * ∑ l, g l * ((y l + m l) + b l) = (∑ l, g l * y l + ∑ l, g l * (m l + b l)) * (1 / 2 : ℝ) := by
  rw [← Finset.sum_add_distrib, mul_comm]
  congr 1
  apply Finset.sum_congr rfl
  intro l _
  ring

/-- With every entry of the six arguments a real number, the kernel's function (scale: the word of 0.5) and the
    reference's (divisor: the word of 2.0) agree at every row and column. -/
theorem kernel_eq_ref (x : Fin 10000 → Fin 128 → EReal) (G : Fin 10000 → Fin 10000 → EReal) (W1 : Fin 128 → Fin 128 → EReal)
    (b1 : Fin 128 → EReal) (W2 : Fin 128 → Fin 128 → EReal) (b2 : Fin 128 → EReal)
    (hx : ∀ r c, ∃ v : ℝ, x r c = (v : EReal)) (hG : ∀ r c, ∃ v : ℝ, G r c = (v : EReal))
    (hW1 : ∀ r c, ∃ v : ℝ, W1 r c = (v : EReal)) (hb1 : ∀ c, ∃ v : ℝ, b1 c = (v : EReal))
    (hW2 : ∀ r c, ∃ v : ℝ, W2 r c = (v : EReal)) (hb2 : ∀ c, ∃ v : ℝ, b2 c = (v : EReal)) :
    kernelSpec (Ideal.ofBits .f32 0x3F000000#32) x G W1 b1 W2 b2 = refSpec (Ideal.ofBits .f32 0x40000000#32) x G W1 b1 W2 b2 := by
  choose xr hxr using hx
  choose Gr hGr using hG
  choose W1r hW1r using hW1
  choose b1r hb1r using hb1
  choose W2r hW2r using hW2
  choose b2r hb2r using hb2
  obtain rfl : x = fun r c => (xr r c : EReal) := by funext r c; exact hxr r c
  obtain rfl : G = fun r c => (Gr r c : EReal) := by funext r c; exact hGr r c
  obtain rfl : W1 = fun r c => (W1r r c : EReal) := by funext r c; exact hW1r r c
  obtain rfl : b1 = fun c => (b1r c : EReal) := by funext c; exact hb1r c
  obtain rfl : W2 = fun r c => (W2r r c : EReal) := by funext r c; exact hW2r r c
  obtain rfl : b2 = fun c => (b2r c : EReal) := by funext c; exact hb2r c
  funext r c
  simp only [kernelSpec, refSpec, kout, lin_coe, kz_coe, prop_coe, mm_coe, ← EReal.coe_add]
  rw [ofBits_half, ofBits_two, Ideal.div_coe (two_ne_zero), ← EReal.coe_mul, ← EReal.coe_mul]
  exact congrArg _ (real_law _ _ _ _)

end Cert.Spec

end
-- ==== Proof.Finite.lean ====
/-
  From the precondition to real entries: each of the six arguments has |entry| < +inf at every index, so every entry
  is a real number.
-/
import proofs.«172139_g81741817578253_cont_9to1c4b_728_2_alg».proof.Pre_finite_inputs
import proofs.«172139_g81741817578253_cont_9to1c4b_728_2_alg».proof.Proof.Gen.Pre_finite_inputs
import Idealize.ShloMosaic.PureOps.Ideal
import Idealize.ShloMosaic.Lib.ReduceAll

noncomputable section

namespace Cert.Finite

open Idealize.ShloMosaic

/-- The word 0x7F800000 denotes +∞. -/
private theorem ofBits_inf : Ideal.ofBits .f32 0x7F800000#32 = (⊤ : EReal) := by
  simp [Ideal.ofBits, Ideal.ieee]

/-- A one-bit word made from a boolean is one only when the boolean is true. -/
private theorem ofBool_eq_one {b : Bool} (h : BitVec.ofBool b = 1#1) : b = true := by
  revert h; cases b <;> decide

/-- An extended real whose absolute value max x (-x) is below +∞ is a real number: +∞ and -∞ both have
    absolute value +∞. -/
private theorem real_of_abs_lt_top (x : EReal) (h : max x (-x) < ⊤) : ∃ v : ℝ, x = (v : EReal) := by
  induction x using EReal.rec with
  | bot => simp at h
  | coe r => exact ⟨r, rfl⟩
  | top => simp at h

/-- The shape of rank zero has exactly one index. -/
private instance : Subsingleton Cert.Pre_finite_inputs.S_.Idx := ⟨fun a b => funext fun d => d.elim0⟩

open Cert.Pre_finite_inputs in
/-- Over any shape: if the conjunction over all indices of |a i| < +∞ is one, every entry of a is a real number. -/
private theorem real_of_all {S : Shape} {axes : List (Fin S.rank)}
    (hb : S_.BroadcastsInDim S (![] : Fin 0 → Fin S.rank)) (hr : S.ReducesTo axes S_) (hu : 0 < S_.numel)
    (a : FVec Ideal S .f32) (j : S_.Idx)
    (e : Host.reduce IntOp.andi
          (cmpf .olt (Host.absf a) (broadcastInDim S ![] hb (constant (F := Ideal) S_ .f32 0x7F800000#32)))
          (constantI S_ 1 1#1) hr hu j = 1#1) :
    ∀ i, ∃ v : ℝ, a i = (v : EReal) := by
  intro i
  have hi := Host.reduce_andi_all _ _ hr hu j e i
  apply real_of_abs_lt_top
  simp only [cmpf, Host.absf, broadcastInDim, constant] at hi
  have hi' : Ideal.cmp .olt (max (a i) (-a i)) (Ideal.ofBits .f32 0x7F800000#32) = 1#1 := hi
  rw [ofBits_inf] at hi'
  exact of_decide_eq_true (ofBool_eq_one hi')

/-- The precondition, all ones, makes every entry of every argument a real number. -/
theorem real_of_pre [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S128x128 .f32) (a3 : FVec Ideal Cert.Pre_finite_inputs.S128 .f32)
    (a4 : FVec Ideal Cert.Pre_finite_inputs.S128x128 .f32) (a5 : FVec Ideal Cert.Pre_finite_inputs.S128 .f32)
    (h : Cert.Pre_finite_inputs.fn (F := Ideal) a0 a1 a2 a3 a4 a5 = fun _ => 1#1) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal)) ∧ (∀ i, ∃ v : ℝ, a5 i = (v : EReal)) := by
  have h0 := congrFun h (fun d => d.elim0)
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ a0 _ e0, real_of_all _ _ _ a1 _ e1, real_of_all _ _ _ a2 _ e2,
    real_of_all _ _ _ a3 _ e3, real_of_all _ _ _ a4 _ e4, real_of_all _ _ _ a5 _ e5⟩

end Cert.Finite

end
-- ==== Proof.lean ====
/-
  The certificate of the kernel
      y = x·W₁ + b₁,   z = (y + (G·y)·W₂) + b₂,   out = ½ · (G·z)
  (three pallas_calls: one whole-array product, then two passes over G in blocks of 400 rows) against the reference
      x₁ = G·(x·W₁ + b₁),   x₂ = G·(x₁·W₂ + b₂),   out = (x₁ + x₂) / 2.
  Frames: each program, as three regions after two reshapes (the kernel) or as fourteen host operations (the
  reference), runs to the end without a fault and leaves its six arguments unchanged. The idealization rewrote nothing.
  Values: at the ideal instance the kernel's result array is the function kernelSpec of the launch contents and the
  reference's is refSpec; the precondition makes every entry real, and over real entries G·(y + u) = G·y + G·u and
  division by 2 is multiplication by ½, so the two agree at every row and column.
-/
import proofs.«172139_g81741817578253_cont_9to1c4b_728_2_alg».proof.Defs
import proofs.«172139_g81741817578253_cont_9to1c4b_728_2_alg».proof.Proof.Gen.Kernel
import proofs.«172139_g81741817578253_cont_9to1c4b_728_2_alg».proof.Proof.Gen.KernelIdeal
import proofs.«172139_g81741817578253_cont_9to1c4b_728_2_alg».proof.Proof.Gen.ReferenceIdeal
import proofs.«172139_g81741817578253_cont_9to1c4b_728_2_alg».proof.Proof.Gen.Pre_finite_inputs
import proofs.«172139_g81741817578253_cont_9to1c4b_728_2_alg».proof.Proof.K.Run
import proofs.«172139_g81741817578253_cont_9to1c4b_728_2_alg».proof.Proof.KI.Run
import proofs.«172139_g81741817578253_cont_9to1c4b_728_2_alg».proof.Proof.KI.Value
import proofs.«172139_g81741817578253_cont_9to1c4b_728_2_alg».proof.Proof.RefSpec
import proofs.«172139_g81741817578253_cont_9to1c4b_728_2_alg».proof.Proof.Algebra
import proofs.«172139_g81741817578253_cont_9to1c4b_728_2_alg».proof.Proof.Finite
import Idealize.ShloMosaic.Adequacy
import Idealize.ShloMosaic.Init

noncomputable section

namespace Cert.Proof

open Idealize.ShloMosaic Idealize.ShloMosaic.ValueIdx Idealize.SL.Sem Cert.Spec

/-- The word-level kernel runs and leaves its arguments unchanged: its run with the result dropped. -/
theorem frame_k : Cert.frame_Kernel := fun m ρ _ =>
  (θ_run Cert.Kernel.defs _ _).mono (fun _ h c => (h c).2) (Cert.Kernel.Hand.run (F := Bits) m ρ)

/-- The idealized kernel likewise. -/
theorem frame_ki : Cert.frame_KernelIdeal := fun m ρ _ =>
  (θ_run Cert.KernelIdeal.defs _ _).mono (fun _ h c => (h c).2) (Cert.KernelIdeal.Hand.run (F := Ideal) m ρ)

/-- The reference likewise. -/
theorem frame_ri : Cert.frame_ReferenceIdeal := fun m ρ _ =>
  (θ_run Cert.ReferenceIdeal.defs _ _).mono (fun _ h c => (h c).2) (Cert.ReferenceIdeal.RefValue.ref_run m ρ)

/-- From memories agreeing on the arguments both programs end with the same result array: the kernel's is kernelSpec of
    the arguments, the reference's refSpec, and these agree once every entry is real, which the precondition says. -/
theorem algebraic : Cert.algebraic_KernelIdeal_ReferenceIdeal := by
  intro m ρ m' ρ' hpre hagree
  refine ⟨fun c => Cert.KernelIdeal.Hand.o4 m c, Cert.KernelIdeal.Hand.run (F := Ideal) m ρ, ?_⟩
  refine (θ_run Cert.ReferenceIdeal.defs _ _).mono (fun _ h c => ⟨(h c).1.trans ?_, (h c).2⟩)
    (Cert.ReferenceIdeal.RefValue.ref_run m' ρ')
  obtain ⟨e0, e1, e2, e3, e4, e5⟩ := hagree c
  rw [e0, e1, e2, e3, e4, e5]
  refine Eq.trans ?_ (Cert.KernelIdeal.Hand.o4_eq m c).symm
  obtain ⟨h0, h1, h2, h3, h4, h5⟩ := Cert.Finite.real_of_pre _ _ _ _ _ _ (hpre c)
  exact congrArg uncur (kernel_eq_ref _ _ _ _ _ _ (fun r k => h0 (ix2 r k)) (fun r k => h1 (ix2 r k)) (fun r k => h2 (ix2 r k))
    (fun k => h3 (ix1 k)) (fun r k => h4 (ix2 r k)) (fun k => h5 (ix1 k))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
